-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S2x50000 : Shape := ⟨2, ![2, 50000]⟩
abbrev S50000 : Shape := ⟨1, ![50000]⟩
abbrev S128x128 : Shape := ⟨2, ![128, 128]⟩
abbrev S128 : Shape := ⟨1, ![128]⟩
abbrev S_ : Shape := ⟨0, ![]⟩
abbrev S1x400000 : Shape := ⟨2, ![1, 400000]⟩
abbrev S400000 : Shape := ⟨1, ![400000]⟩
abbrev S1x50000 : Shape := ⟨2, ![1, 50000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x400000_S1x400000_1_0 : S2x400000.Slices ![1, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_
  slices_S2x50000_S1x50000_1_0 : S2x50000.Slices ![1, 0] S1x50000
  shapeCasts_S1x50000_S50000 : S1x50000.ShapeCasts S50000

variable [Facts]

def fn_part5 {F : FTy → Type} [FloatOps F] (main_v81 : IVec S_ 1) (main_v85 : IVec S50000 1) (main_v87 : IVec S50000 32) (main_v88 : IVec S50000 32) : IVec S_ 1 :=
  let main_v89 : IVec S50000 1 := cmpi .slt main_v87 main_v88
  let main_v90 : IVec S50000 1 := andi main_v85 main_v89
  let main_c_29 : IVec S_ 1 := constantI S_ 1 1#1
  let main_v91 : IVec S_ 1 := (fun x v => Host.reduce IntOp.andi x v reducesTo_S50000_S_d0 h_S_) main_v90 main_c_29
  let main_v92 : IVec S_ 1 := andi main_v81 main_v91
  main_v92

def fn_part4 {F : FTy → Type} [FloatOps F] (main_arg4 : IVec S2x50000 32) (main_arg5 : IVec S2x50000 32) (main_v59 : IVec S_ 1) (main_v69 : IVec S_ 1) : IVec S_ 1 :=
  let main_v70 : IVec S_ 1 := andi main_v59 main_v69
  let main_v71 : IVec S1x50000 32 := (extractStridedSlice S1x50000 ![1, 0] · slices_S2x50000_S1x50000_1_0) main_arg4
  let main_v72 : IVec S50000 32 := shapeCast S50000 main_v71 shapeCasts_S1x50000_S50000
  let main_c_24 : IVec S_ 32 := constantI S_ 32 0#32
  let main_v73 : IVec S50000 32 := broadcastInDim S50000 ![] bcast_S_S50000 main_c_24
  let main_v74 : IVec S50000 1 := cmpi .sge main_v72 main_v73
  let main_v75 : IVec S1x50000 32 := (extractStridedSlice S1x50000 ![1, 0] · slices_S2x50000_S1x50000_1_0) main_arg4
  let main_v76 : IVec S50000 32 := shapeCast S50000 main_v75 shapeCasts_S1x50000_S50000
  let main_c_25 : IVec S_ 32 := constantI S_ 32 50000#32
  let main_v77 : IVec S50000 32 := broadcastInDim S50000 ![] bcast_S_S50000 main_c_25
  let main_v78 : IVec S50000 1 := cmpi .slt main_v76 main_v77
  let main_v79 : IVec S50000 1 := andi main_v74 main_v78
  let main_c_26 : IVec S_ 1 := constantI S_ 1 1#1
  let main_v80 : IVec S_ 1 := (fun x v => Host.reduce IntOp.andi x v reducesTo_S50000_S_d0 h_S_) main_v79 main_c_26
  let main_v81 : IVec S_ 1 := andi main_v70 main_v80
  let main_v82 : IVec S1x50000 32 := (extractStridedSlice S1x50000 ![1, 0] · slices_S2x50000_S1x50000_1_0) main_arg5
  let main_v83 : IVec S50000 32 := shapeCast S50000 main_v82 shapeCasts_S1x50000_S50000
  let main_c_27 : IVec S_ 32 := constantI S_ 32 0#32
  let main_v84 : IVec S50000 32 := broadcastInDim S50000 ![] bcast_S_S50000 main_c_27
  let main_v85 : IVec S50000 1 := cmpi .sge main_v83 main_v84
  let main_v86 : IVec S1x50000 32 := (extractStridedSlice S1x50000 ![1, 0] · slices_S2x50000_S1x50000_1_0) main_arg5
  let main_v87 : IVec S50000 32 := shapeCast S50000 main_v86 shapeCasts_S1x50000_S50000
  let main_c_28 : IVec S_ 32 := constantI S_ 32 50000#32
  let main_v88 : IVec S50000 32 := broadcastInDim S50000 ![] bcast_S_S50000 main_c_28
  fn_part5 (F := F) main_v81 main_v85 main_v87 main_v88

def fn_part3 {F : FTy → Type} [FloatOps F] (main_arg2 : IVec S2x400000 32) (main_arg3 : IVec S2x400000 32) (main_arg4 : IVec S2x50000 32) (main_arg5 : IVec S2x50000 32) (main_v48 : IVec S_ 1) (main_v50 : IVec S400000 32) (main_c_18 : IVec S_ 32) : IVec S_ 1 :=
  let main_v51 : IVec S400000 32 := broadcastInDim S400000 ![] bcast_S_S400000 main_c_18
  let main_v52 : IVec S400000 1 := cmpi .sge main_v50 main_v51
  let main_v53 : IVec S1x400000 32 := (extractStridedSlice S1x400000 ![1, 0] · slices_S2x400000_S1x400000_1_0) main_arg2
  let main_v54 : IVec S400000 32 := shapeCast S400000 main_v53 shapeCasts_S1x400000_S400000
  let main_c_19 : IVec S_ 32 := constantI S_ 32 50000#32
  let main_v55 : IVec S400000 32 := broadcastInDim S400000 ![] bcast_S_S400000 main_c_19
  let main_v56 : IVec S400000 1 := cmpi .slt main_v54 main_v55
  let main_v57 : IVec S400000 1 := andi main_v52 main_v56
  let main_c_20 : IVec S_ 1 := constantI S_ 1 1#1
  let main_v58 : IVec S_ 1 := (fun x v => Host.reduce IntOp.andi x v reducesTo_S400000_S_d0 h_S_) main_v57 main_c_20
  let main_v59 : IVec S_ 1 := andi main_v48 main_v58
  let main_v60 : IVec S1x400000 32 := (extractStridedSlice S1x400000 ![1, 0] · slices_S2x400000_S1x400000_1_0) main_arg3
  let main_v61 : IVec S400000 32 := shapeCast S400000 main_v60 shapeCasts_S1x400000_S400000
  let main_c_21 : IVec S_ 32 := constantI S_ 32 0#32
  let main_v62 : IVec S400000 32 := broadcastInDim S400000 ![] bcast_S_S400000 main_c_21
  let main_v63 : IVec S400000 1 := cmpi .sge main_v61 main_v62
  let main_v64 : IVec S1x400000 32 := (extractStridedSlice S1x400000 ![1, 0] · slices_S2x400000_S1x400000_1_0) main_arg3
  let main_v65 : IVec S400000 32 := shapeCast S400000 main_v64 shapeCasts_S1x400000_S400000
  let main_c_22 : IVec S_ 32 := constantI S_ 32 50000#32
  let main_v66 : IVec S400000 32 := broadcastInDim S400000 ![] bcast_S_S400000 main_c_22
  let main_v67 : IVec S400000 1 := cmpi .slt main_v65 main_v66
  let main_v68 : IVec S400000 1 := andi main_v63 main_v67
  let main_c_23 : IVec S_ 1 := constantI S_ 1 1#1
  let main_v69 : IVec S_ 1 := (fun x v => Host.reduce IntOp.andi x v reducesTo_S400000_S_d0 h_S_) main_v68 main_c_23
  fn_part4 (F := F) main_arg4 main_arg5 main_v59 main_v69

def fn_part2 {F : FTy → Type} [FloatOps F] (main_arg2 : IVec S2x400000 32) (main_arg3 : IVec S2x400000 32) (main_arg4 : IVec S2x50000 32) (main_arg5 : IVec S2x50000 32) (main_arg11 : FVec F S128x128 .f32) (main_arg12 : FVec F S128x128 .f32) (main_arg13 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : IVec S1x400000 32 := (extractStridedSlice S1x400000 ![1, 0] · slices_S2x400000_S1x400000_1_0) main_arg2
  let main_v50 : IVec S400000 32 := shapeCast S400000 main_v49 shapeCasts_S1x400000_S400000
  let main_c_18 : IVec S_ 32 := constantI S_ 32 0#32
  fn_part3 (F := F) main_arg2 main_arg3 main_arg4 main_arg5 main_v48 main_v50 main_c_18

def fn_part1 {F : FTy → Type} [FloatOps F] (main_arg2 : IVec S2x400000 32) (main_arg3 : IVec S2x400000 32) (main_arg4 : IVec S2x50000 32) (main_arg5 : IVec S2x50000 32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg3 main_arg4 main_arg5 main_arg11 main_arg12 main_arg13 main_v33

def fn {F : FTy → Type} [FloatOps F] (main_arg0 : FVec F S50000x128 .f32) (main_arg1 : FVec F S50000x128 .f32) (main_arg2 : IVec S2x400000 32) (main_arg3 : IVec S2x400000 32) (main_arg4 : IVec S2x50000 32) (main_arg5 : IVec S2x50000 32) (main_arg6 : FVec F S50000 .f32) (main_arg7 : FVec F S50000 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000 .f32 := Host.absf main_arg6
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S50000 .f32 := Host.absf main_arg7
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg2 main_arg3 main_arg4 main_arg5 main_arg8 main_arg9 main_arg10 main_arg11 main_arg12 main_arg13 main_v13 main_v16
-- ==== Kernel.lean ====
abbrev S50000x128 : Shape := ⟨2, ![50000, 128]⟩
abbrev S2x400000 : Shape := ⟨2, ![2, 400000]⟩
abbrev S2x50000 : Shape := ⟨2, ![2, 50000]⟩
abbrev S50000 : Shape := ⟨1, ![50000]⟩
abbrev S128x128 : Shape := ⟨2, ![128, 128]⟩
abbrev S128 : Shape := ⟨1, ![128]⟩
abbrev S1x400000 : Shape := ⟨2, ![1, 400000]⟩
abbrev S400000 : Shape := ⟨1, ![400000]⟩
abbrev S1x50000 : Shape := ⟨2, ![1, 50000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S100000x128 : Shape := ⟨2, ![100000, 128]⟩
abbrev S100000 : Shape := ⟨1, ![100000]⟩
abbrev S2x50000x128 : Shape := ⟨3, ![2, 50000, 128]⟩
abbrev S2x50000x1 : Shape := ⟨3, ![2, 50000, 1]⟩
abbrev S1x50000x128 : Shape := ⟨3, ![1, 50000, 128]⟩
abbrev S1x128x128 : Shape := ⟨3, ![1, 128, 128]⟩
abbrev S2x128x128 : Shape := ⟨3, ![2, 128, 128]⟩
abbrev S1x128 : Shape := ⟨2, ![1, 128]⟩
abbrev S2x128 : Shape := ⟨2, ![2, 128]⟩
abbrev S2x1x128 : Shape := ⟨3, ![2, 1, 128]⟩
abbrev S1x2000x128 : Shape := ⟨3, ![1, 2000, 128]⟩
abbrev S1x2000x1 : Shape := ⟨3, ![1, 2000, 1]⟩
abbrev S1x1x128 : Shape := ⟨3, ![1, 1, 128]⟩
abbrev S2000x1 : Shape := ⟨2, ![2000, 1]⟩
abbrev S2000x128 : Shape := ⟨2, ![2000, 128]⟩

abbrev nBuf : Space → Nat
  | .hbm => 140
  | .vmem => 11
  | .smem => 0
  | _ => 0

abbrev hbmTy0_0 (i : Nat) : BufTy := match i % 128 with
  | 0 => ⟨S50000x128, .f32⟩
  | 1 => ⟨S50000x128, .f32⟩
  | 2 => ⟨S2x400000, .i32⟩
  | 3 => ⟨S2x400000, .i32⟩
  | 4 => ⟨S2x50000, .i32⟩
  | 5 => ⟨S2x50000, .i32⟩
  | 6 => ⟨S50000, .f32⟩
  | 7 => ⟨S50000, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S1x400000, .i32⟩
  | 15 => ⟨S400000, .i32⟩
  | 16 => ⟨S1x400000, .i32⟩
  | 17 => ⟨S400000, .i32⟩
  | 18 => ⟨S1x50000, .i32⟩
  | 19 => ⟨S50000, .i32⟩
  | 20 => ⟨S1x50000, .i32⟩
  | 21 => ⟨S50000, .i32⟩
  | 22 => ⟨S1x400000, .i32⟩
  | 23 => ⟨S400000, .i32⟩
  | 24 => ⟨S1x400000, .i32⟩
  | 25 => ⟨S400000, .i32⟩
  | 26 => ⟨S1x50000, .i32⟩
  | 27 => ⟨S50000, .i32⟩
  | 28 => ⟨S1x50000, .i32⟩
  | 29 => ⟨S50000, .i32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x128, .f32⟩
  | 39 => ⟨S50000x1, .f32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S50000x128, .f32⟩
  | 49 => ⟨S50000x128, .f32⟩
  | 50 => ⟨S50000x128, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .f32⟩
  | 60 => ⟨S50000x1, .f32⟩
  | 61 => ⟨S_, .i32⟩
  | 62 => ⟨S50000, .i32⟩
  | 63 => ⟨S50000, .i1⟩
  | 64 => ⟨S_, .i32⟩
  | 65 => ⟨S50000, .i32⟩
  | 66 => ⟨S50000, .i32⟩
  | 67 => ⟨S50000, .i32⟩
  | 68 => ⟨S50000x1, .i32⟩
  | 69 => ⟨S50000x128, .f32⟩
  | 70 => ⟨S50000x128, .f32⟩
  | 71 => ⟨S50000x128, .f32⟩
  | 72 => ⟨S_, .i32⟩
  | 73 => ⟨S400000, .i32⟩
  | 74 => ⟨S400000, .i32⟩
  | 75 => ⟨S_, .i32⟩
  | 76 => ⟨S50000, .i32⟩
  | 77 => ⟨S50000, .i32⟩
  | 78 => ⟨S_, .f32⟩
  | 79 => ⟨S100000x128, .f32⟩
  | 80 => ⟨S400000x1, .i32⟩
  | 81 => ⟨S100000x128, .f32⟩
  | 82 => ⟨S_, .f32⟩
  | 83 => ⟨S100000x128, .f32⟩
  | 84 => ⟨S50000x1, .i32⟩
  | 85 => ⟨S100000x128, .f32⟩
  | 86 => ⟨S100000x128, .f32⟩
  | 87 => ⟨S_, .f32⟩
  | 88 => ⟨S100000x128, .f32⟩
  | 89 => ⟨S400000x1, .i32⟩
  | 90 => ⟨S100000x128, .f32⟩
  | 91 => ⟨S100000x128, .f32⟩
  | 92 => ⟨S_, .f32⟩
  | 93 => ⟨S100000x128, .f32⟩
  | 94 => ⟨S50000x1, .i32⟩
  | 95 => ⟨S100000x128, .f32⟩
  | 96 => ⟨S100000x128, .f32⟩
  | 97 => ⟨S_, .f32⟩
  | 98 => ⟨S400000, .f32⟩
  | 99 => ⟨S_, .f32⟩
  | 100 => ⟨S50000, .f32⟩
  | 101 => ⟨S_, .f32⟩
  | 102 => ⟨S100000, .f32⟩
  | 103 => ⟨S400000x1, .i32⟩
  | 104 => ⟨S100000, .f32⟩
  | 105 => ⟨S_, .f32⟩
  | 106 => ⟨S100000, .f32⟩
  | 107 => ⟨S50000x1, .i32⟩
  | 108 => ⟨S100000, .f32⟩
  | 109 => ⟨S100000, .f32⟩
  | 110 => ⟨S_, .f32⟩
  | 111 => ⟨S100000, .f32⟩
  | 112 => ⟨S400000x1, .i32⟩
  | 113 => ⟨S100000, .f32⟩
  | 114 => ⟨S100000, .f32⟩
  | 115 => ⟨S_, .f32⟩
  | 116 => ⟨S100000, .f32⟩
  | 117 => ⟨S50000x1, .i32⟩
  | 118 => ⟨S100000, .f32⟩
  | 119 => ⟨S100000, .f32⟩
  | 120 => ⟨S2x50000x128, .f32⟩
  | 121 => ⟨S2x50000x1, .f32⟩
  | 122 => ⟨S1x50000x128, .f32⟩
  | 123 => ⟨S1x50000x128, .f32⟩
  | 124 => ⟨S2x50000x128, .f32⟩
  | 125 => ⟨S128x128, .f32⟩
  | 126 => ⟨S128x128, .f32⟩
  | 127 => ⟨S1x128x128, .f32⟩
  | _ => ⟨S50000x128, .f32⟩

abbrev hbmTy0_1 (i : Nat) : BufTy := match i % 128 with
  | 0 => ⟨S1x128x128, .f32⟩
  | 1 => ⟨S2x128x128, .f32⟩
  | 2 => ⟨S128x128, .f32⟩
  | 3 => ⟨S128x128, .f32⟩
  | 4 => ⟨S1x128x128, .f32⟩
  | 5 => ⟨S1x128x128, .f32⟩
  | 6 => ⟨S2x128x128, .f32⟩
  | 7 => ⟨S1x128, .f32⟩
  | 8 => ⟨S1x128, .f32⟩
  | 9 => ⟨S2x128, .f32⟩
  | 10 => ⟨S2x1x128, .f32⟩
  | 11 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1x2000x128, .f32⟩
  | .local _ .vmem, ⟨1, _⟩ => ⟨S1x2000x128, .f32⟩
  | .local _ .vmem, ⟨2, _⟩ => ⟨S1x2000x1, .f32⟩
  | .local _ .vmem, ⟨3, _⟩ => ⟨S1x2000x1, .f32⟩
  | .local _ .vmem, ⟨4, _⟩ => ⟨S1x2000x128, .f32⟩
  | .local _ .vmem, ⟨5, _⟩ => ⟨S1x2000x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x2000x128, .f32⟩
  | .local _ .vmem, ⟨10, _⟩ => ⟨S1x2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_3 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_cst : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S_S400000 : S_.BroadcastsInDim S400000 (![] : Fin 0 → Fin S400000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S_S50000 : S_.BroadcastsInDim S50000 (![] : Fin 0 → Fin S50000.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000x128_S2x50000x128 : S100000x128.ShapeCasts S2x50000x128
  shapeCasts_S100000_S2x50000x1 : S100000.ShapeCasts S2x50000x1
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  transposes_S128x128_S128x128_1_0 : S128x128.Transposes [1, 0] S128x128
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  bcast_S128_S1x128_1 : S128.BroadcastsInDim S1x128 (![1] : Fin 1 → Fin S1x128.rank)
  concatenates_S1x128_S1x128_S2x128_d0 : Shape.Concatenates [S1x128, S1x128] S2x128 0
  shapeCasts_S2x128_S2x1x128 : S2x128.ShapeCasts S2x1x128
  inb_S1x2000x1_S1x2000x1_0_0_0 : ∀ a, (![0, 0, 0] : Fin 3 → Nat) a + S1x2000x1.size a ≤ S1x2000x1.size a
  h_S1x2000x1 : 0 < S1x2000x1.numel
  shapeCasts_S1x2000x1_S2000x1 : S1x2000x1.ShapeCasts S2000x1
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  broadcasts_S2000x1_S2000x128 : S2000x1.Broadcasts S2000x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S2000x128 : S1x128.Broadcasts S2000x128
  shapeCasts_S2000x128_S1x2000x128 : S2000x128.ShapeCasts S1x2000x128
  gather_S50000x128_S400000x1_S400000x128_1_0_n_n_0_1_1128_wf : GatherDims.WF S50000x128 S400000x1 S400000x128 [1] [0] [] [0] [] 1 ![1, 128]
  gather_S50000x128_S50000x1_S50000x128_1_0_n_n_0_1_1128_wf : GatherDims.WF S50000x128 S50000x1 S50000x128 [1] [0] [] [0] [] 1 ![1, 128]
  scatter_S100000x128_S400000x1_S400000x128_1_0_0_1_wf : ScatterDims.WF S100000x128 S400000x1 S400000x128 [1] [0] [0] 1
  scatter_S100000x128_S50000x1_S50000x128_1_0_0_1_wf : ScatterDims.WF S100000x128 S50000x1 S50000x128 [1] [0] [0] 1
  scatter_S100000_S400000x1_S400000_n_0_0_1_wf : ScatterDims.WF S100000 S400000x1 S400000 [] [0] [0] 1
  scatter_S100000_S50000x1_S50000_n_0_0_1_wf : ScatterDims.WF S100000 S50000x1 S50000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S2x50000x128.size a
  hwx0_0 : ∀ i : grid0.Coords, EltTy.bits .f32 = 32 ∨ (Rect.block (s := S2x50000x128) S1x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x1.size a ≤ S2x50000x1.size a
  hwx0_1 : ∀ i : grid0.Coords, EltTy.bits .f32 = 32 ∨ (Rect.block (s := S2x50000x1) S1x2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x128.size a ≤ S2x50000x128.size a
  hwx0_2 : ∀ i : grid0.Coords, EltTy.bits .f32 = 32 ∨ (Rect.block (s := S2x50000x128) S1x2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S2x128x128.size a
  hwx0_4 : ∀ i : grid0.Coords, EltTy.bits .f32 = 32 ∨ (Rect.block (s := S2x128x128) S1x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2000x128.size a ≤ S2x50000x128.size a
  hwx0_6 : ∀ i : grid0.Coords, EltTy.bits .f32 = 32 ∨ (Rect.block (s := S2x50000x128) S1x2000x128.size (cc0_transform_6 i) (hinb0_6 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def scatter_S100000_S50000x1_S50000_n_0_0_1 : ScatterDims S100000 S50000x1 S50000 where
  updateWindowDims := []
  insertedWindowDims := [0]
  scatterDimsToOperandDims := [0]
  indexVectorDim := 1
  wf := scatter_S100000_S50000x1_S50000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v86) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v87) S1x2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v90) S1x2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v95) S1x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v100) S1x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v104) S1x1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v105) S1x2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S2x50000 : Shape := ⟨2, ![2, 50000]⟩
abbrev S50000 : Shape := ⟨1, ![50000]⟩
abbrev S128x128 : Shape := ⟨2, ![128, 128]⟩
abbrev S128 : Shape := ⟨1, ![128]⟩
abbrev S2x450000 : Shape := ⟨2, ![2, 450000]⟩
abbrev S_ : Shape := ⟨0, ![]⟩
abbrev S400000 : Shape := ⟨1, ![400000]⟩
abbrev S450000 : Shape := ⟨1, ![450000]⟩
abbrev S1x450000 : Shape := ⟨2, ![1, 450000]⟩
abbrev S450000x1 : Shape := ⟨2, ![450000, 1]⟩
abbrev S450000x128 : Shape := ⟨2, ![450000, 128]⟩
abbrev S50000x1 : Shape := ⟨2, ![50000, 1]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x400000, .i32⟩
  | .hbm, ⟨3, _⟩ => ⟨S2x400000, .i32⟩
  | .hbm, ⟨4, _⟩ => ⟨S2x50000, .i32⟩
  | .hbm, ⟨5, _⟩ => ⟨S2x50000, .i32⟩
  | .hbm, ⟨6, _⟩ => ⟨S50000, .f32⟩
  | .hbm, ⟨7, _⟩ => ⟨S50000, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S2x450000, .i32⟩
  | .hbm, ⟨15, _⟩ => ⟨S_, .f32⟩
  | .hbm, ⟨16, _⟩ => ⟨S400000, .f32⟩
  | .hbm, ⟨17, _⟩ => ⟨S450000, .f32⟩
  | .hbm, ⟨18, _⟩ => ⟨S2x450000, .i32⟩
  | .hbm, ⟨19, _⟩ => ⟨S_, .f32⟩
  | .hbm, ⟨20, _⟩ => ⟨S400000, .f32⟩
  | .hbm, ⟨21, _⟩ => ⟨S450000, .f32⟩
  | .hbm, ⟨22, _⟩ => ⟨S1x450000, .i32⟩
  | .hbm, ⟨23, _⟩ => ⟨S450000, .i32⟩
  | .hbm, ⟨24, _⟩ => ⟨S1x450000, .i32⟩
  | .hbm, ⟨25, _⟩ => ⟨S450000, .i32⟩
  | .hbm, ⟨26, _⟩ => ⟨S450000x1, .f32⟩
  | .hbm, ⟨27, _⟩ => ⟨S_, .i32⟩
  | .hbm, ⟨28, _⟩ => ⟨S450000, .i32⟩
  | .hbm, ⟨29, _⟩ => ⟨S450000, .i1⟩
  | .hbm, ⟨30, _⟩ => ⟨S_, .i32⟩
  | .hbm, ⟨31, _⟩ => ⟨S450000, .i32⟩
  | .hbm, ⟨32, _⟩ => ⟨S450000, .i32⟩
  | .hbm, ⟨33, _⟩ => ⟨S450000, .i32⟩
  | .hbm, ⟨34, _⟩ => ⟨S450000x1, .i32⟩
  | .hbm, ⟨35, _⟩ => ⟨S450000x128, .f32⟩
  | .hbm, ⟨36, _⟩ => ⟨S450000x128, .f32⟩
  | .hbm, ⟨37, _⟩ => ⟨S450000x128, .f32⟩
  | .hbm, ⟨38, _⟩ => ⟨S_, .f32⟩
  | .hbm, ⟨39, _⟩ => ⟨S50000x128, .f32⟩
  | .hbm, ⟨40, _⟩ => ⟨S450000x1, .i32⟩
  | .hbm, ⟨41, _⟩ => ⟨S50000x128, .f32⟩
  | .hbm, ⟨42, _⟩ => ⟨S_, .f32⟩
  | .hbm, ⟨43, _⟩ => ⟨S450000, .f32⟩
  | .hbm, ⟨44, _⟩ => ⟨S_, .f32⟩
  | .hbm, ⟨45, _⟩ => ⟨S50000, .f32⟩
  | .hbm, ⟨46, _⟩ => ⟨S450000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S128x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S50000x128, .f32⟩
  | .hbm, ⟨62, _⟩ => ⟨S1x450000, .i32⟩
  | .hbm, ⟨63, _⟩ => ⟨S450000, .i32⟩
  | .hbm, ⟨64, _⟩ => ⟨S1x450000, .i32⟩
  | .hbm, ⟨65, _⟩ => ⟨S450000, .i32⟩
  | .hbm, ⟨66, _⟩ => ⟨S450000x1, .f32⟩
  | .hbm, ⟨67, _⟩ => ⟨S_, .i32⟩
  | .hbm, ⟨68, _⟩ => ⟨S450000, .i32⟩
  | .hbm, ⟨69, _⟩ => ⟨S450000, .i1⟩
  | .hbm, ⟨70, _⟩ => ⟨S_, .i32⟩
  | .hbm, ⟨71, _⟩ => ⟨S450000, .i32⟩
  | .hbm, ⟨72, _⟩ => ⟨S450000, .i32⟩
  | .hbm, ⟨73, _⟩ => ⟨S450000, .i32⟩
  | .hbm, ⟨74, _⟩ => ⟨S450000x1, .i32⟩
  | .hbm, ⟨75, _⟩ => ⟨S450000x128, .f32⟩
  | .hbm, ⟨76, _⟩ => ⟨S450000x128, .f32⟩
  | .hbm, ⟨77, _⟩ => ⟨S450000x128, .f32⟩
  | .hbm, ⟨78, _⟩ => ⟨S_, .f32⟩
  | .hbm, ⟨79, _⟩ => ⟨S50000x128, .f32⟩
  | .hbm, ⟨80, _⟩ => ⟨S450000x1, .i32⟩
  | .hbm, ⟨81, _⟩ => ⟨S50000x128, .f32⟩
  | .hbm, ⟨82, _⟩ => ⟨S_, .f32⟩
  | .hbm, ⟨83, _⟩ => ⟨S450000, .f32⟩
  | .hbm, ⟨84, _⟩ => ⟨S_, .f32⟩
  | .hbm, ⟨85, _⟩ => ⟨S50000, .f32⟩
  | .hbm, ⟨86, _⟩ => ⟨S450000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S128x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S128x128, .f32⟩
  | .hbm, ⟨100, _⟩ => ⟨S50000x128, .f32⟩
  | .hbm, ⟨101, _⟩ => ⟨S50000x128, .f32⟩
  | .hbm, ⟨102, _⟩ => ⟨S1x50000x128, .f32⟩
  | .hbm, ⟨103, _⟩ => ⟨S1x50000x128, .f32⟩
  | .hbm, ⟨104, _⟩ => ⟨S2x50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_c_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]

class Facts₀ : Prop where
  concatenates_S2x400000_S2x50000_S2x450000_d1 : Shape.Concatenates [S2x400000, S2x50000] S2x450000 1
  bcast_S_S400000 : S_.BroadcastsInDim S400000 (![] : Fin 0 → Fin S400000.rank)
  concatenates_S400000_S50000_S450000_d0 : Shape.Concatenates [S400000, S50000] S450000 0
  slices_S2x450000_S1x450000_0_0 : S2x450000.Slices ![0, 0] S1x450000
  shapeCasts_S1x450000_S450000 : S1x450000.ShapeCasts S450000
  slices_S2x450000_S1x450000_1_0 : S2x450000.Slices ![1, 0] S1x450000
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  scatter_S50000_S450000x1_S450000_n_0_0_1_wf : ScatterDims.WF S50000 S450000x1 S450000 [] [0] [0] 1
  dot_S50000x128_S128x128_S50000x128_1_0_0_1_n_n_wf : DotDims.WF S50000x128 S128x128 S50000x128 [1] [0] [0] [1] [] []

variable [Facts₀]

def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.PreDecode.lean ====
/-
  What the precondition says about the edge lists: every destination id (row 1 of each of the four edge lists), read as
  a signed integer, lies in [0, 50000) — the range of the 50000 nodes it is a segment id for. The finiteness conjuncts
  are not opened here: the bridge never uses them.
-/
import proofs.«422597_j16389595201849_3_alg».proof.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.Lib.StableHlo.Predicate

noncomputable section

namespace Cert.PreDecode

open Idealize.ShloMosaic Idealize.ShloMosaic.ValueIdx Cert.Pre_finite_inputs

instance : Subsingleton S_.Idx := ⟨fun _ _ => funext fun d => d.elim0⟩

/-- Row 1 of an edge list, flattened to a vector, holds at position `e` the list's entry `(1, e)`. -/
theorem row1_apply {E : Nat} (hs : (⟨2, ![2, E]⟩ : Shape).Slices ![1, 0] ⟨2, ![1, E]⟩)
    (hc : (⟨2, ![1, E]⟩ : Shape).ShapeCasts ⟨1, ![E]⟩) (I : IVec ⟨2, ![2, E]⟩ 32) (e : Fin E) :
    shapeCast ⟨1, ![E]⟩ (extractStridedSlice ⟨2, ![1, E]⟩ ![1, 0] I hs) hc (ix1 e) = I (ix2 1 e) := by
  rw [shapeCast_apply _ hc (ix1 e) (ix2 0 e) (by
    rw [Shape.rowMajor_val_two, Shape.rowMajor_val_one]; show 0 * E + e.val = e.val; omega)]
  exact extractStridedSlice_apply ![1, 0] I hs (ix2 0 e) (ix2 1 e) (fun a => match a with
    | ⟨0, _⟩ => rfl
    | ⟨1, _⟩ => by show e.val = 0 + e.val; omega)

/-- One list's conjunct: if "0 ≤ id and id < 50000" holds at every position of row 1, every destination id is in range. -/
theorem range_of_all {E : Nat} (hs : (⟨2, ![2, E]⟩ : Shape).Slices ![1, 0] ⟨2, ![1, E]⟩)
    (hc : (⟨2, ![1, E]⟩ : Shape).ShapeCasts ⟨1, ![E]⟩) (hb : S_.BroadcastsInDim ⟨1, ![E]⟩ (![] : Fin 0 → Fin 1))
    (hr : (⟨1, ![E]⟩ : Shape).ReducesTo [0] S_) (h0 : 0 < S_.numel) (I : IVec ⟨2, ![2, E]⟩ 32)
    (h : Host.reduce IntOp.andi
        (andi (cmpi .sge (shapeCast ⟨1, ![E]⟩ (extractStridedSlice ⟨2, ![1, E]⟩ ![1, 0] I hs) hc)
                (broadcastInDim ⟨1, ![E]⟩ ![] hb (constantI S_ 32 0#32)))
              (cmpi .slt (shapeCast ⟨1, ![E]⟩ (extractStridedSlice ⟨2, ![1, E]⟩ ![1, 0] I hs) hc)
                (broadcastInDim ⟨1, ![E]⟩ ![] hb (constantI S_ 32 50000#32))))
        (constantI S_ 1 1#1) hr h0 ix0 = 1#1) (e : Fin E) :
    0 ≤ (I (ix2 1 e)).toInt ∧ (I (ix2 1 e)).toInt < 50000 := by
  have hall := Host.reduce_andi_all _ _ hr h0 ix0 h (ix1 e)
  have hand : IntOp.andi
      (IntOp.cmpi .sge (shapeCast ⟨1, ![E]⟩ (extractStridedSlice ⟨2, ![1, E]⟩ ![1, 0] I hs) hc (ix1 e))
        (broadcastInDim ⟨1, ![E]⟩ ![] hb (constantI S_ 32 0#32) (ix1 e)))
      (IntOp.cmpi .slt (shapeCast ⟨1, ![E]⟩ (extractStridedSlice ⟨2, ![1, E]⟩ ![1, 0] I hs) hc (ix1 e))
        (broadcastInDim ⟨1, ![E]⟩ ![] hb (constantI S_ 32 50000#32) (ix1 e))) = 1#1 := hall
  rw [row1_apply, StableHlo.Predicate.bcast_scalar hb h0, StableHlo.Predicate.bcast_scalar hb h0] at hand
  obtain ⟨hge, hlt⟩ := IntOp.andi_eq_one.mp hand
  have hge' := IntOp.cmpi_sge.mp hge
  have hlt' := IntOp.cmpi_slt.mp hlt
  have z0 : (constantI S_ 32 0#32 (Shape.Idx.first h0)).toInt = 0 := by
    show (0#32 : BitVec 32).toInt = 0; decide
  have z5 : (constantI S_ 32 50000#32 (Shape.Idx.first h0)).toInt = 50000 := by
    show (50000#32 : BitVec 32).toInt = 50000; decide
  rw [z0] at hge'
  rw [z5] at hlt'
  exact ⟨hge', hlt'⟩

/-- THE PRECONDITION'S RANGE FACTS: under it, every destination id of the four edge lists is in [0, 50000). -/
theorem dst_range {F : FTy → Type} [FloatOps F] [hP : Cert.Pre_finite_inputs.Facts]
    (a0 a1 : FVec F S50000x128 .f32) (a2 a3 : IVec S2x400000 32) (a4 a5 : IVec S2x50000 32) (a6 a7 : FVec F S50000 .f32)
    (a8 a9 : FVec F S128x128 .f32) (a10 : FVec F S128 .f32) (a11 a12 : FVec F S128x128 .f32) (a13 : FVec F S128 .f32)
    (h : Cert.Pre_finite_inputs.fn (F := F) a0 a1 a2 a3 a4 a5 a6 a7 a8 a9 a10 a11 a12 a13 = fun _ => 1#1) :
    (∀ e : Fin 400000, 0 ≤ (a2 (ix2 1 e)).toInt ∧ (a2 (ix2 1 e)).toInt < 50000)
    ∧ (∀ e : Fin 400000, 0 ≤ (a3 (ix2 1 e)).toInt ∧ (a3 (ix2 1 e)).toInt < 50000)
    ∧ (∀ e : Fin 50000, 0 ≤ (a4 (ix2 1 e)).toInt ∧ (a4 (ix2 1 e)).toInt < 50000)
    ∧ (∀ e : Fin 50000, 0 ≤ (a5 (ix2 1 e)).toInt ∧ (a5 (ix2 1 e)).toInt < 50000) := by
  have h0 := congrFun h ix0
  unfold fn fn_part1 fn_part2 fn_part3 fn_part4 fn_part5 at h0
  dsimp only at h0
  obtain ⟨h123, c4⟩ := IntOp.andi_eq_one.mp h0
  obtain ⟨h12, c3⟩ := IntOp.andi_eq_one.mp h123
  obtain ⟨h1, c2⟩ := IntOp.andi_eq_one.mp h12
  obtain ⟨_, c1⟩ := IntOp.andi_eq_one.mp h1
  exact ⟨range_of_all _ _ _ _ _ a2 c1, range_of_all _ _ _ _ _ a3 c2, range_of_all _ _ _ _ _ a4 c3,
    range_of_all _ _ _ _ _ a5 c4⟩

end Cert.PreDecode

end
-- ==== Proof.KernelHostTerms.lean ====
/-
  What the region finds in its six input arrays, as functions of the fourteen arguments.

  The program's host operations before the region build, from the arguments: `sAll` (the summed messages of both
  relations in one `[2, 50000, 128]` array: four accumulating scatters into a shared space of 2 · 50000 segments, relation
  a→b's destination ids shifted by 50000, added, then reshaped), `cAll` (the edge counts, likewise, as `[2, 50000, 1]`),
  `xdAll` (the two destination tables stacked), `wT` (two transposed weight matrices stacked) and `bAll` (two biases
  stacked). Each is a composition of the same library operations the program prints.
-/
import proofs.«422597_j16389595201849_3_alg».proof.Proof.Gen.KernelIdeal.Frame

noncomputable section

namespace Cert.KernelIdeal.KHost

open Cert.KernelIdeal Idealize.ShloMosaic Idealize.ShloMosaic.TcCoe Idealize.SL.Sem Idealize.ShloMosaic.StableHlo
open Cert.KernelIdeal.Gen (V hostOps0)
open Facts₀ Facts

variable {F : FTy → Type} [FloatOps F] [Facts]

/-- Row 0 (the source ids) of a message edge list, as a vector. -/
def srcM (I : IVec S2x400000 32) : IVec S400000 32 :=
  shapeCast _ (extractStridedSlice S1x400000 ![0, 0] I slices_S2x400000_S1x400000_0_0) shapeCasts_S1x400000_S400000
/-- Row 1 (the destination ids) of a message edge list. -/
def dstM (I : IVec S2x400000 32) : IVec S400000 32 :=
  shapeCast _ (extractStridedSlice S1x400000 ![1, 0] I slices_S2x400000_S1x400000_1_0) shapeCasts_S1x400000_S400000
/-- Row 0 of a target edge list. -/
def srcT (I : IVec S2x50000 32) : IVec S50000 32 :=
  shapeCast _ (extractStridedSlice S1x50000 ![0, 0] I slices_S2x50000_S1x50000_0_0) shapeCasts_S1x50000_S50000
/-- Row 1 of a target edge list. -/
def dstT (I : IVec S2x50000 32) : IVec S50000 32 :=
  shapeCast _ (extractStridedSlice S1x50000 ![1, 0] I slices_S2x50000_S1x50000_1_0) shapeCasts_S1x50000_S50000

/-- A negative id counts from the end of the 50000 rows (message edges). -/
def wrapM (v : IVec S400000 32) : IVec S400000 32 :=
  select (cmpi .slt v (broadcastInDim S400000 ![] bcast_S_S400000 (constantI S_ 32 0#32)))
    (addi v (broadcastInDim S400000 ![] bcast_S_S400000 (constantI S_ 32 50000#32))) v
/-- The same for target edges. -/
def wrapT (v : IVec S50000 32) : IVec S50000 32 :=
  select (cmpi .slt v (broadcastInDim S50000 ![] bcast_S_S50000 (constantI S_ 32 0#32)))
    (addi v (broadcastInDim S50000 ![] bcast_S_S50000 (constantI S_ 32 50000#32))) v

/-- The source rows of the message edges. -/
def gatM (X : FVec F S50000x128 .f32) (I : IVec S2x400000 32) : FVec F S400000x128 .f32 :=
  Host.gather gather_S50000x128_S400000x1_S400000x128_1_0_n_n_0_1_1128 X
    (broadcastInDim S400000x1 ![0] bcast_S400000_S400000x1_0 (wrapM (srcM I)))
/-- The weighted source rows of the target edges. -/
def gatT (X : FVec F S50000x128 .f32) (I : IVec S2x50000 32) (w : FVec F S50000 .f32) : FVec F S50000x128 .f32 :=
  mulf (broadcastInDim S50000x128 ![0, 1] bcast_S50000x1_S50000x128_0_1 (broadcastInDim S50000x1 ![0] bcast_S50000_S50000x1_0 w))
    (Host.gather gather_S50000x128_S50000x1_S50000x128_1_0_n_n_0_1_1128 X
      (broadcastInDim S50000x1 ![0] bcast_S50000_S50000x1_0 (wrapT (srcT I))))

/-- Destination ids shifted past the other type's 50000 nodes (message edges). -/
def shiftM (v : IVec S400000 32) : IVec S400000 32 :=
  addi v (broadcastInDim S400000 ![] bcast_S_S400000 (constantI S_ 32 50000#32))
/-- The same for target edges. -/
def shiftT (v : IVec S50000 32) : IVec S50000 32 :=
  addi v (broadcastInDim S50000 ![] bcast_S_S50000 (constantI S_ 32 50000#32))

/-- Message rows accumulated into the shared space of 100000 segments. -/
def scM (dst : IVec S400000 32) (upd : FVec F S400000x128 .f32) : FVec F S100000x128 .f32 :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 dst) upd
/-- Target rows accumulated into the shared space. -/
def scT (dst : IVec S50000 32) (upd : FVec F S50000x128 .f32) : FVec F S100000x128 .f32 :=
  Host.scatterAdd scatter_S100000x128_S50000x1_S50000x128_1_0_0_1
    (broadcastInDim S100000x128 ![] bcast_S_S100000x128 (constant S_ .f32 0x00000000#32))
    (broadcastInDim S50000x1 ![0] bcast_S50000_S50000x1_0 dst) upd

/-- The summed messages of both relations. -/
def sAll (x0 x1 : FVec F S50000x128 .f32) (x2 x3 : IVec S2x400000 32) (x4 x5 : IVec S2x50000 32) (x6 x7 : FVec F S50000 .f32) :
    FVec F S2x50000x128 .f32 :=
  shapeCast _ (addf (addf (addf (scM (dstM x3) (gatM x1 x3)) (scT (dstT x5) (gatT x1 x5 x7)))
    (scM (shiftM (dstM x2)) (gatM x0 x2))) (scT (shiftT (dstT x4)) (gatT x0 x4 x6))) shapeCasts_S100000x128_S2x50000x128

/-- One per message edge, accumulated into the shared space. -/
def ctM (dst : IVec S400000 32) : FVec F S100000 .f32 :=
  Host.scatterAdd scatter_S100000_S400000x1_S400000_n_0_0_1
    (broadcastInDim S100000 ![] bcast_S_S100000 (constant S_ .f32 0x00000000#32))
    (broadcastInDim S400000x1 ![0] bcast_S400000_S400000x1_0 dst)
    (broadcastInDim S400000 ![] bcast_S_S400000 (constant S_ .f32 0x3F800000#32))
/-- One per target edge. -/
def ctT (dst : IVec S50000 32) : FVec F S100000 .f32 :=
  Host.scatterAdd scatter_S100000_S50000x1_S50000_n_0_0_1
    (broadcastInDim S100000 ![] bcast_S_S100000 (constant S_ .f32 0x00000000#32))
    (broadcastInDim S50000x1 ![0] bcast_S50000_S50000x1_0 dst)
    (broadcastInDim S50000 ![] bcast_S_S50000 (constant S_ .f32 0x3F800000#32))

/-- The edge counts of both relations. -/
def cAll (x2 x3 : IVec S2x400000 32) (x4 x5 : IVec S2x50000 32) : FVec F S2x50000x1 .f32 :=
  shapeCast _ (addf (addf (addf (ctM (dstM x3)) (ctT (dstT x5))) (ctM (shiftM (dstM x2)))) (ctT (shiftT (dstT x4))))
    shapeCasts_S100000_S2x50000x1

/-- The two destination tables stacked. -/
def xdAll (x0 x1 : FVec F S50000x128 .f32) : FVec F S2x50000x128 .f32 :=
  concatenate S2x50000x128 0 [⟨S1x50000x128, broadcastInDim S1x50000x128 ![1, 2] bcast_S50000x128_S1x50000x128_1_2 x0⟩,
    ⟨S1x50000x128, broadcastInDim S1x50000x128 ![1, 2] bcast_S50000x128_S1x50000x128_1_2 x1⟩]
    concatenates_S1x50000x128_S1x50000x128_S2x50000x128_d0

/-- Two weight matrices, each transposed, stacked. -/
def wT (a b : FVec F S128x128 .f32) : FVec F S2x128x128 .f32 :=
  concatenate S2x128x128 0
    [⟨S1x128x128, broadcastInDim S1x128x128 ![1, 2] bcast_S128x128_S1x128x128_1_2 (transpose S128x128 [1, 0] a transposes_S128x128_S128x128_1_0)⟩,
     ⟨S1x128x128, broadcastInDim S1x128x128 ![1, 2] bcast_S128x128_S1x128x128_1_2 (transpose S128x128 [1, 0] b transposes_S128x128_S128x128_1_0)⟩]
    concatenates_S1x128x128_S1x128x128_S2x128x128_d0

/-- Two biases stacked. -/
def bAll (a b : FVec F S128 .f32) : FVec F S2x1x128 .f32 :=
  shapeCast _ (concatenate S2x128 0 [⟨S1x128, broadcastInDim S1x128 ![1] bcast_S128_S1x128_1 a⟩,
    ⟨S1x128, broadcastInDim S1x128 ![1] bcast_S128_S1x128_1 b⟩] concatenates_S1x128_S1x128_S2x128_d0) shapeCasts_S2x128_S2x1x128

end Cert.KernelIdeal.KHost

end
-- ==== Proof.KernelHostArrays.lean ====
/-
  The arrays the region finds ARE the functions of KernelHostTerms.lean applied to the argument arrays: each equation
  runs the program's host operations before the region, one after the other, from the launch memory, and reads the
  buffer the window stages.
-/
import proofs.«422597_j16389595201849_3_alg».proof.Proof.KernelHostTerms
import Idealize.ShloMosaic.Lib.StableHlo.Run

noncomputable section

namespace Cert.KernelIdeal.KHost

open Cert.KernelIdeal Idealize.ShloMosaic Idealize.ShloMosaic.TcCoe Idealize.SL.Sem Idealize.ShloMosaic.StableHlo
open Cert.KernelIdeal.Gen (V hostOps0)

variable {F : FTy → Type} [FloatOps F]

variable (m : (ℓ : Loc nD τ sig) → Buf (Elt F) ℓ)

set_option maxHeartbeats 0 in
/-- The region finds the summed messages in window 0's array. -/
theorem V_s (c : Dev nD) : (V m c main_v86 : S2x50000x128.Idx → F .f32)
    = sAll (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  dsimp only [V, hostOps0]
  after_results_simp <;> rfl

set_option maxHeartbeats 0 in
/-- … the edge counts in window 1's. -/
theorem V_c (c : Dev nD) : (V m c main_v87 : S2x50000x1.Idx → F .f32)
    = cAll (m ((c.tc : Thread nD τ).loc main_arg2)) (m ((c.tc : Thread nD τ).loc main_arg3))
        (m ((c.tc : Thread nD τ).loc main_arg4)) (m ((c.tc : Thread nD τ).loc main_arg5)) := by
  dsimp only [V, hostOps0]
  after_results_simp <;> rfl

set_option maxHeartbeats 0 in
/-- … the stacked destination tables in window 2's. -/
theorem V_xd (c : Dev nD) : (V m c main_v90 : S2x50000x128.Idx → F .f32)
    = xdAll (m ((c.tc : Thread nD τ).loc main_arg0)) (m ((c.tc : Thread nD τ).loc main_arg1)) := by
  dsimp only [V, hostOps0]
  after_results_simp <;> rfl

set_option maxHeartbeats 0 in
/-- … the stacked transposed relation weights in window 3's. -/
theorem V_wrel (c : Dev nD) : (V m c main_v95 : S2x128x128.Idx → F .f32)
    = wT (m ((c.tc : Thread nD τ).loc main_arg11)) (m ((c.tc : Thread nD τ).loc main_arg8)) := by
  dsimp only [V, hostOps0]
  after_results_simp <;> rfl

set_option maxHeartbeats 0 in
/-- … the stacked transposed root weights in window 4's. -/
theorem V_wroot (c : Dev nD) : (V m c main_v100 : S2x128x128.Idx → F .f32)
    = wT (m ((c.tc : Thread nD τ).loc main_arg12)) (m ((c.tc : Thread nD τ).loc main_arg9)) := by
  dsimp only [V, hostOps0]
  after_results_simp <;> rfl

set_option maxHeartbeats 0 in
/-- … and the stacked biases in window 5's. -/
theorem V_b (c : Dev nD) : (V m c main_v104 : S2x1x128.Idx → F .f32)
    = bAll (m ((c.tc : Thread nD τ).loc main_arg13)) (m ((c.tc : Thread nD τ).loc main_arg10)) := by
  dsimp only [V, hostOps0]
  after_results_simp <;> rfl

end Cert.KernelIdeal.KHost

end
-- ==== Proof.KernelPayload.lean ====
/-
  The kernel body's arithmetic read at one element.

  At a grid point the body sees a [1,2000,128] block `s` of neighbour sums, a [1,2000,1] block `cnt` of neighbour
  counts, a [1,2000,128] block `x` of the destination nodes' own features, two [1,128,128] weight blocks and a
  [1,1,128] bias block, and stores the [1,2000,128] block

      out[0, p, q] = ( Σ_k (s[0,p,k] / max(cnt[0,p,0], 1)) · Wrel[0,k,q]  +  Σ_k x[0,p,k] · Wroot[0,k,q] )  +  b[0,0,q].

  Over the extended reals the two roundings to bf16 are the identity and each product into a zero accumulator is the
  plain sum over the contracted axis; what is left is the bookkeeping of the unit axes the blocks carry.
-/
import proofs.«422597_j16389595201849_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Cert.KernelIdeal Cert.KernelIdeal.Gen Idealize.ShloMosaic Idealize.ShloMosaic.ValueIdx

/-! ## One column broadcast along the lanes -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a [2000,128] by a [128,128] matrix -/

/-- The left operand's index keeps the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's index runs over the contracted axis along its columns. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's index runs over the contracted axis along its rows. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's index keeps the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Into a zero accumulator the product, at `(p, q)`, is `Σ_k A[p,k] · B[k,q]`. -/
theorem matmul_zero_apply {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's value at an element -/

/-- The mean of the neighbour sums, `s / max(cnt, 1)`: the count's one column is broadcast along the 128 lanes, and both
    blocks lose their leading unit axis. -/
theorem mean_apply (v0 : Vec Ideal S1x2000x1 .f32) (v2 : Vec Ideal S1x2000x128 .f32) (p : Fin 2000) (k : Fin 128) :
    divf (shapeCast S2000x128 v2 shapeCasts_S1x2000x128_S2000x128)
        (broadcastTo S2000x128 (maximumf (shapeCast S2000x1 v0 shapeCasts_S1x2000x1_S2000x1)
          (broadcast S2000x1 (Scalar.ofBits (F := Ideal) .f32 0x3F800000#32))) broadcasts_S2000x1_S2000x128) (ix2 p k)
      = Ideal.div (v2 (ix3 (0 : Fin 1) p k)) (max (v0 (ix3 (0 : Fin 1) p (0 : Fin 1))) (Ideal.ofBits .f32 0x3F800000#32)) := by
  rw [divf_apply, shapeCast_1ab_ab_apply, broadcastTo_a1_ab_apply, maximumf_apply, shapeCast_1ab_ab_apply, broadcast_apply]
  rfl

/-- THE BODY'S RESULT AT `(u, p, q)`: the mean of the neighbour sums times `Wrel`, plus the node's own features times
    `Wroot`, plus the bias. -/
theorem pay_apply (v0 : Vec Ideal S1x2000x1 .f32) (v2 v9 : Vec Ideal S1x2000x128 .f32) (v12 v15 : Vec Ideal S1x128x128 .f32)
    (v21 : Vec Ideal S1x1x128 .f32) (u : Fin 1) (p : Fin 2000) (q : Fin 128) :
    k0_pay1 v0 v2 v9 v12 v15 v21 (ix3 u p q)
      = ((∑ k : Fin 128, Ideal.div (v2 (ix3 (0 : Fin 1) p k)) (max (v0 (ix3 (0 : Fin 1) p (0 : Fin 1))) (Ideal.ofBits .f32 0x3F800000#32)) * v12 (ix3 (0 : Fin 1) k q))
          + (∑ k : Fin 128, v9 (ix3 (0 : Fin 1) p k) * v15 (ix3 (0 : Fin 1) k q)))
        + v21 (ix3 (0 : Fin 1) (0 : Fin 1) q) := by
  unfold k0_pay1
  rw [shapeCast_ab_1ab_apply, addf_apply, addf_apply, matmul_zero_apply, matmul_zero_apply, broadcastTo_1b_ab_apply,
    shapeCast_1ab_ab_apply]
  simp only [truncf_apply, mean_apply, shapeCast_1ab_ab_apply]

end Cert.KernelIdeal.KPay

end
-- ==== Proof.KernelValue.lean ====
/-
  The kernel's result array as one function of the six arrays it reads.

  The grid has 2 × 25 points. Point `t` = 25·r + b works on relation `r` and on rows 2000·b … 2000·b + 1999 of the
  50000 nodes: it sees those rows of the neighbour sums, counts and own features, relation `r`'s two 128 × 128 weight
  matrices and its bias row, and writes the same rows of relation `r`'s output. Every block is the restriction of its
  array to those coordinates, so what a point writes is its block of ONE function `out` of the arrays; the 50 blocks
  tile the [2, 50000, 128] array (row `n` of relation `r` is in the block of point 25·r + n / 2000), and the array
  ends holding `out`.
-/
import proofs.«422597_j16389595201849_3_alg».proof.Proof.Gen.KernelIdeal.Value
import proofs.«422597_j16389595201849_3_alg».proof.Proof.KernelPayload
import Idealize.ShloMosaic.Lib.Pipeline.Value
import Idealize.ShloMosaic.Lib.ValueIdx

noncomputable section

open scoped BigOperators

namespace Cert.KernelIdeal.KVal

open Cert.KernelIdeal Cert.KernelIdeal.Gen Idealize.ShloMosaic Idealize.ShloMosaic.ValueIdx
open Idealize.ShloMosaic.TcCoe Idealize.SL.Sem
open Idealize.ShloMosaic.Pipeline (Dat)

/-- The region's result array as ONE function of the six arrays it finds: for relation `j 0`, node `j 1` and output
    feature `j 2`, the mean of the neighbour sums times `Wr`, plus the node's own features times `Wo`, plus the bias. -/
def out (S : S2x50000x128.Idx → EReal) (C : S2x50000x1.Idx → EReal) (Xd : S2x50000x128.Idx → EReal)
    (Wr Wo : S2x128x128.Idx → EReal) (B : S2x1x128.Idx → EReal) : S2x50000x128.Idx → EReal := fun j =>
  ((∑ k : Fin 128, Ideal.div (S (ix3 (j 0) (j 1) k)) (max (C (ix3 (j 0) (j 1) 0)) (Ideal.ofBits .f32 0x3F800000#32)) * Wr (ix3 (j 0) k (j 2)))
    + (∑ k : Fin 128, Xd (ix3 (j 0) (j 1) k) * Wo (ix3 (j 0) k (j 2)))) + B (ix3 (j 0) 0 (j 2))

/-! ## One element of one block -/

/-- If the six blocks are the arrays restricted to relation `r` and to the 2000 rows from `n0` on, the body's result at an
    element of the block is `out` at the array index under it. Each hypothesis says where a block's element sits in its
    array, coordinate by coordinate. -/
theorem block_apply (S : S2x50000x128.Idx → EReal) (C : S2x50000x1.Idx → EReal) (Xd : S2x50000x128.Idx → EReal)
    (Wr Wo : S2x128x128.Idx → EReal) (B : S2x1x128.Idx → EReal)
    (x0 : Vec Ideal S1x2000x128 .f32) (x1 : Vec Ideal S1x2000x1 .f32) (x2 : Vec Ideal S1x2000x128 .f32)
    (x3 x4 : Vec Ideal S1x128x128 .f32) (x5 : Vec Ideal S1x1x128 .f32) (r n0 : ℕ)
    (h0 : ∀ (y : S1x2000x128.Idx) (i : S2x50000x128.Idx), (i 0).val = r → (i 1).val = n0 + (y 1).val → (i 2).val = (y 2).val → x0 y = S i)
    (h1 : ∀ (y : S1x2000x1.Idx) (i : S2x50000x1.Idx), (i 0).val = r → (i 1).val = n0 + (y 1).val → x1 y = C i)
    (h2 : ∀ (y : S1x2000x128.Idx) (i : S2x50000x128.Idx), (i 0).val = r → (i 1).val = n0 + (y 1).val → (i 2).val = (y 2).val → x2 y = Xd i)
    (h3 : ∀ (y : S1x128x128.Idx) (i : S2x128x128.Idx), (i 0).val = r → (i 1).val = (y 1).val → (i 2).val = (y 2).val → x3 y = Wr i)
    (h4 : ∀ (y : S1x128x128.Idx) (i : S2x128x128.Idx), (i 0).val = r → (i 1).val = (y 1).val → (i 2).val = (y 2).val → x4 y = Wo i)
    (h5 : ∀ (y : S1x1x128.Idx) (i : S2x1x128.Idx), (i 0).val = r → (i 2).val = (y 2).val → x5 y = B i)
    (y : S1x2000x128.Idx) (j : S2x50000x128.Idx)
    (hj0 : (j 0).val = r) (hj1 : (j 1).val = n0 + (y 1).val) (hj2 : (j 2).val = (y 2).val) :
    k0_pay1 x1 x0 x2 x3 x4 x5 y = out S C Xd Wr Wo B j := by
  obtain ⟨u, p, q, rfl⟩ : ∃ (u : Fin 1) (p : Fin 2000) (q : Fin 128), y = ix3 u p q := ⟨y 0, y 1, y 2, eq_ix3 y⟩
  rw [KPay.pay_apply]
  unfold out
  rw [h1 (ix3 (0 : Fin 1) p (0 : Fin 1)) (ix3 (j 0) (j 1) 0) hj0 hj1,
    h5 (ix3 (0 : Fin 1) (0 : Fin 1) q) (ix3 (j 0) 0 (j 2)) hj0 hj2]
  congr 1
  congr 1
  · refine Finset.sum_congr rfl fun k _ => ?_
    rw [h0 (ix3 (0 : Fin 1) p k) (ix3 (j 0) (j 1) k) hj0 hj1 rfl, h3 (ix3 (0 : Fin 1) k q) (ix3 (j 0) k (j 2)) hj0 rfl hj2]
  · refine Finset.sum_congr rfl fun k _ => ?_
    rw [h2 (ix3 (0 : Fin 1) p k) (ix3 (j 0) (j 1) k) hj0 hj1 rfl, h4 (ix3 (0 : Fin 1) k q) (ix3 (j 0) k (j 2)) hj0 rfl hj2]

/-! ## Where each window's block sits at a grid point -/

theorem hz : (![0, 0, 0] : Fin 3 → Nat) = fun _ => 0 := funext fun a => by fin_cases a <;> rfl

/-- The printed index maps, decided over the 50 points: point `t` is relation `t / 25` and row block `t % 25`; the three
    row windows and the output are at block `(t / 25, t % 25, 0)`, the weights and the bias at `(t / 25, 0, 0)`. -/
theorem idx_facts : ∀ t : Fin cfg0.N,
    (win0_0.index t (0 : Fin 3) = t.val / 25 ∧ win0_0.index t (1 : Fin 3) = t.val % 25 ∧ win0_0.index t (2 : Fin 3) = 0)
    ∧ (win0_1.index t (0 : Fin 3) = t.val / 25 ∧ win0_1.index t (1 : Fin 3) = t.val % 25 ∧ win0_1.index t (2 : Fin 3) = 0)
    ∧ (win0_2.index t (0 : Fin 3) = t.val / 25 ∧ win0_2.index t (1 : Fin 3) = t.val % 25 ∧ win0_2.index t (2 : Fin 3) = 0)
    ∧ (win0_3.index t (0 : Fin 3) = t.val / 25 ∧ win0_3.index t (1 : Fin 3) = 0 ∧ win0_3.index t (2 : Fin 3) = 0)
    ∧ (win0_4.index t (0 : Fin 3) = t.val / 25 ∧ win0_4.index t (1 : Fin 3) = 0 ∧ win0_4.index t (2 : Fin 3) = 0)
    ∧ (win0_5.index t (0 : Fin 3) = t.val / 25 ∧ win0_5.index t (1 : Fin 3) = 0 ∧ win0_5.index t (2 : Fin 3) = 0)
    ∧ (win0_6.index t (0 : Fin 3) = t.val / 25 ∧ win0_6.index t (1 : Fin 3) = t.val % 25 ∧ win0_6.index t (2 : Fin 3) = 0) :=
  (by decide +kernel : ∀ t : Fin grid0.N, _)

variable (m : (ℓ : Loc nD τ sig) → Buf (Elt Ideal) ℓ)

/-- The block of neighbour sums at point `t`: relation `t / 25`, rows from 2000·(t % 25). -/
theorem sum_block (c : Dev nD) (t : Fin cfg0.N) (y : S1x2000x128.Idx) (i : S2x50000x128.Idx)
    (hi0 : (i 0).val = t.val / 25) (hi1 : (i 1).val = 2000 * (t.val % 25) + (y 1).val) (hi2 : (i 2).val = (y 2).val) :
    (iblk m c 0 t : Vec Ideal S1x2000x128 .f32) y = (V m c main_v86 : S2x50000x128.Idx → EReal) i := by
  obtain ⟨⟨e0, e1, e2⟩, -⟩ := idx_facts t
  show V m c main_v86 (((cfg0.win 0).blk t).view.emb y) = V m c main_v86 i
  refine congrArg _ (funext fun a => Fin.ext ?_)
  have hy0 : (y 0).val < 1 := (y 0).isLt
  match a with
  | ⟨0, _⟩ => show win0_0.index t (0 : Fin 3) * 1 + 1 * (y 0).val = (i 0).val; omega
  | ⟨1, _⟩ => show win0_0.index t (1 : Fin 3) * 2000 + 1 * (y 1).val = (i 1).val; omega
  | ⟨2, _⟩ => show win0_0.index t (2 : Fin 3) * 128 + 1 * (y 2).val = (i 2).val; omega

/-- The block of neighbour counts at point `t`. -/
theorem count_block (c : Dev nD) (t : Fin cfg0.N) (y : S1x2000x1.Idx) (i : S2x50000x1.Idx)
    (hi0 : (i 0).val = t.val / 25) (hi1 : (i 1).val = 2000 * (t.val % 25) + (y 1).val) :
    (iblk m c 1 t : Vec Ideal S1x2000x1 .f32) y = (V m c main_v87 : S2x50000x1.Idx → EReal) i := by
  obtain ⟨-, ⟨e0, e1, e2⟩, -⟩ := idx_facts t
  show V m c main_v87 (((cfg0.win 1).blk t).view.emb y) = V m c main_v87 i
  refine congrArg _ (funext fun a => Fin.ext ?_)
  have hy0 : (y 0).val < 1 := (y 0).isLt
  have hy2 : (y 2).val < 1 := (y 2).isLt
  have hi2 : (i 2).val < 1 := (i 2).isLt
  match a with
  | ⟨0, _⟩ => show win0_1.index t (0 : Fin 3) * 1 + 1 * (y 0).val = (i 0).val; omega
  | ⟨1, _⟩ => show win0_1.index t (1 : Fin 3) * 2000 + 1 * (y 1).val = (i 1).val; omega
  | ⟨2, _⟩ => show win0_1.index t (2 : Fin 3) * 1 + 1 * (y 2).val = (i 2).val; omega

/-- The block of the nodes' own features at point `t`. -/
theorem own_block (c : Dev nD) (t : Fin cfg0.N) (y : S1x2000x128.Idx) (i : S2x50000x128.Idx)
    (hi0 : (i 0).val = t.val / 25) (hi1 : (i 1).val = 2000 * (t.val % 25) + (y 1).val) (hi2 : (i 2).val = (y 2).val) :
    (iblk m c 2 t : Vec Ideal S1x2000x128 .f32) y = (V m c main_v90 : S2x50000x128.Idx → EReal) i := by
  obtain ⟨-, -, ⟨e0, e1, e2⟩, -⟩ := idx_facts t
  show V m c main_v90 (((cfg0.win 2).blk t).view.emb y) = V m c main_v90 i
  refine congrArg _ (funext fun a => Fin.ext ?_)
  have hy0 : (y 0).val < 1 := (y 0).isLt
  match a with
  | ⟨0, _⟩ => show win0_2.index t (0 : Fin 3) * 1 + 1 * (y 0).val = (i 0).val; omega
  | ⟨1, _⟩ => show win0_2.index t (1 : Fin 3) * 2000 + 1 * (y 1).val = (i 1).val; omega
  | ⟨2, _⟩ => show win0_2.index t (2 : Fin 3) * 128 + 1 * (y 2).val = (i 2).val; omega

/-- The neighbour weights at point `t`: relation `t / 25`'s whole matrix. -/
theorem wrel_block (c : Dev nD) (t : Fin cfg0.N) (y : S1x128x128.Idx) (i : S2x128x128.Idx)
    (hi0 : (i 0).val = t.val / 25) (hi1 : (i 1).val = (y 1).val) (hi2 : (i 2).val = (y 2).val) :
    (iblk m c 3 t : Vec Ideal S1x128x128 .f32) y = (V m c main_v95 : S2x128x128.Idx → EReal) i := by
  obtain ⟨-, -, -, ⟨e0, e1, e2⟩, -⟩ := idx_facts t
  show V m c main_v95 (((cfg0.win 3).blk t).view.emb y) = V m c main_v95 i
  refine congrArg _ (funext fun a => Fin.ext ?_)
  have hy0 : (y 0).val < 1 := (y 0).isLt
  match a with
  | ⟨0, _⟩ => show win0_3.index t (0 : Fin 3) * 1 + 1 * (y 0).val = (i 0).val; omega
  | ⟨1, _⟩ => show win0_3.index t (1 : Fin 3) * 128 + 1 * (y 1).val = (i 1).val; omega
  | ⟨2, _⟩ => show win0_3.index t (2 : Fin 3) * 128 + 1 * (y 2).val = (i 2).val; omega

/-- The own-feature weights at point `t`: relation `t / 25`'s whole matrix. -/
theorem wroot_block (c : Dev nD) (t : Fin cfg0.N) (y : S1x128x128.Idx) (i : S2x128x128.Idx)
    (hi0 : (i 0).val = t.val / 25) (hi1 : (i 1).val = (y 1).val) (hi2 : (i 2).val = (y 2).val) :
    (iblk m c 4 t : Vec Ideal S1x128x128 .f32) y = (V m c main_v100 : S2x128x128.Idx → EReal) i := by
  obtain ⟨-, -, -, -, ⟨e0, e1, e2⟩, -⟩ := idx_facts t
  show V m c main_v100 (((cfg0.win 4).blk t).view.emb y) = V m c main_v100 i
  refine congrArg _ (funext fun a => Fin.ext ?_)
  have hy0 : (y 0).val < 1 := (y 0).isLt
  match a with
  | ⟨0, _⟩ => show win0_4.index t (0 : Fin 3) * 1 + 1 * (y 0).val = (i 0).val; omega
  | ⟨1, _⟩ => show win0_4.index t (1 : Fin 3) * 128 + 1 * (y 1).val = (i 1).val; omega
  | ⟨2, _⟩ => show win0_4.index t (2 : Fin 3) * 128 + 1 * (y 2).val = (i 2).val; omega

/-- The bias at point `t`: relation `t / 25`'s row. -/
theorem bias_block (c : Dev nD) (t : Fin cfg0.N) (y : S1x1x128.Idx) (i : S2x1x128.Idx)
    (hi0 : (i 0).val = t.val / 25) (hi2 : (i 2).val = (y 2).val) :
    (iblk m c 5 t : Vec Ideal S1x1x128 .f32) y = (V m c main_v104 : S2x1x128.Idx → EReal) i := by
  obtain ⟨-, -, -, -, -, ⟨e0, e1, e2⟩, -⟩ := idx_facts t
  show V m c main_v104 (((cfg0.win 5).blk t).view.emb y) = V m c main_v104 i
  refine congrArg _ (funext fun a => Fin.ext ?_)
  have hy0 : (y 0).val < 1 := (y 0).isLt
  have hy1 : (y 1).val < 1 := (y 1).isLt
  have hi1 : (i 1).val < 1 := (i 1).isLt
  match a with
  | ⟨0, _⟩ => show win0_5.index t (0 : Fin 3) * 1 + 1 * (y 0).val = (i 0).val; omega
  | ⟨1, _⟩ => show win0_5.index t (1 : Fin 3) * 1 + 1 * (y 1).val = (i 1).val; omega
  | ⟨2, _⟩ => show win0_5.index t (2 : Fin 3) * 128 + 1 * (y 2).val = (i 2).val; omega

/-! ## What a point writes, and the whole array -/

/-- WHAT POINT `t` WRITES BACK is block `t` of `out` of the six arrays as the region finds them. -/
theorem flushed_eq (c : Dev nD) (t : Fin cfg0.N) :
    (dats (F := Ideal) m 0 c).flushed 6 t
      = ((cfg0.win 6).blk t).view.read (Elt Ideal) (out (V m c main_v86) (V m c main_v87) (V m c main_v90) (V m c main_v95) (V m c main_v100) (V m c main_v104)) := by
  rw [Value.flushed6]
  unfold Gen.out0_6
  rw [View.canon_unit_zero hz]
  simp only [View.ld_unit_zero (S := S1x2000x128) hz, View.ld_unit_zero (S := S1x2000x1) hz,
    View.ld_unit_zero (S := S1x128x128) hz, View.ld_unit_zero (S := S1x1x128) hz]
  obtain ⟨-, -, -, -, -, -, ⟨e0, e1, e2⟩⟩ := idx_facts t
  funext y
  show k0_pay1 (iblk m c 1 t) (iblk m c 0 t) (iblk m c 2 t) (iblk m c 3 t) (iblk m c 4 t) (iblk m c 5 t) y
    = out (V m c main_v86) (V m c main_v87) (V m c main_v90) (V m c main_v95) (V m c main_v100) (V m c main_v104) (((cfg0.win 6).blk t).view.emb y)
  have hy0 : (y 0).val < 1 := (y 0).isLt
  refine block_apply _ _ _ _ _ _ _ _ _ _ _ _ (t.val / 25) (2000 * (t.val % 25)) (sum_block m c t) (count_block m c t)
    (own_block m c t) (wrel_block m c t) (wroot_block m c t) (bias_block m c t) y _ ?_ ?_ ?_
  · show win0_6.index t (0 : Fin 3) * 1 + 1 * (y 0).val = t.val / 25; omega
  · show win0_6.index t (1 : Fin 3) * 2000 + 1 * (y 1).val = 2000 * (t.val % 25) + (y 1).val; omega
  · show win0_6.index t (2 : Fin 3) * 128 + 1 * (y 2).val = (y 2).val; omega

/-- An index of the array is in point `t`'s block iff each coordinate is in the block's range on its axis. -/
theorem mem_blk (t : Fin cfg0.N) (i : S2x50000x128.Idx) :
    i ∈ ((cfg0.win 6).blk t).view.set ↔ ∀ a : Fin 3, win0_6.index t a * S1x2000x128.size a ≤ (i a).val
      ∧ (i a).val < win0_6.index t a * S1x2000x128.size a + S1x2000x128.size a := by
  show i ∈ ((View.whole main_v105).slice (win0_6.rect t)).set ↔ _
  rw [View.set_slice_whole, Rect.mem_set_unit]
  exact Iff.rfl

/-- EVERY INDEX IS COVERED: row `n` of relation `r` is in the block of point 25·r + n / 2000. -/
theorem cover (i : S2x50000x128.Idx) :
    ∃ t : Fin cfg0.N, (cfg0.win 6).flush t = true ∧ i ∈ ((cfg0.win 6).blk t).view.set := by
  have hi0 : (i 0).val < 2 := (i 0).isLt
  have hi1 : (i 1).val < 50000 := (i 1).isLt
  have hi2 : (i 2).val < 128 := (i 2).isLt
  have hN : cfg0.N = 50 := rfl
  let t : Fin cfg0.N := ⟨25 * (i 0).val + (i 1).val / 2000, by omega⟩
  have ht : t.val = 25 * (i 0).val + (i 1).val / 2000 := rfl
  obtain ⟨-, -, -, -, -, -, ⟨e0, e1, e2⟩⟩ := idx_facts t
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2000 ≤ (i 1).val ∧ (i 1).val < win0_6.index t (1 : Fin 3) * 2000 + 2000; omega
  | ⟨2, _⟩ => show win0_6.index t (2 : Fin 3) * 128 ≤ (i 2).val ∧ (i 2).val < win0_6.index t (2 : Fin 3) * 128 + 128; omega

/-- THE ARRAY after the run: `out` of the six arrays as the region finds them. -/
theorem final (c : Dev nD) :
    (dats (F := Ideal) m 0 c).arrAt 6 cfg0.N
      = out (V m c main_v86) (V m c main_v87) (V m c main_v90) (V m c main_v95) (V m c main_v100) (V m c main_v104) :=
  (dats (F := Ideal) m 0 c).arrAt_eq_of_cover 6 (out (V m c main_v86) (V m c main_v87) (V m c main_v90) (V m c main_v95) (V m c main_v100) (V m c main_v104))
    (fun t _ => flushed_eq m c t) cover

end Cert.KernelIdeal.KVal

end
-- ==== Proof.LibRowScatter.lean ====
/-
  Rows gathered and rows accumulated, read at an index.

  A node-feature table `x : [N, D]` and a list of `E` node ids `idx : [E, 1]`.
  • The row gather `x[idx]` (offset axis 1, collapsed axis 0, one start-index component, slice `[1, D]`) at entry
    `(e, c)` is `x` at row `idx e` — the id read as a signed integer and clamped into `[0, N − 1]` — and column `c`.
  • The accumulating scatter of update rows `upd : [E, D]` into `x : [R, D]` along axis 0 (window axis 1, inserted
    axis 0), over the extended reals, at entry `(i, c)` is `x (i, c)` plus the sum, over the edges `e` whose id read
    as a signed integer IS `i`, of `upd (e, c)`: an id outside `[0, R)` meets no row and its update is dropped.
  • The same with scalar updates `upd : [E]` into `x : [R]` (a count per segment).
  All three are generic in the extents.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

/-! ## The row gather -/

/-- The dimension numbers of `x[idx]` for `x : [N, D]`, `idx : [E, 1]`. -/
abbrev gatherRows (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row an id names in a table of `N` rows: read signed, clamped into `[0, N − 1]`. -/
def rowOf (N : Nat) (hN : 0 < N) {w : Nat} (i : BitVec w) : Fin N := ⟨min i.toInt.toNat (N - 1), by omega⟩

theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (gatherRows N D E wf) x idx (ix2 e c) = x (ix2 (rowOf N hN (idx (ix2 e 0))) c) := by
  unfold Host.gather
  congr 1
  funext a
  refine Fin.ext ?_
  show (gatherRows N D E wf).start (ix2 e c) idx a + (gatherRows N D E wf).batchCoord (ix2 e c) a
    + (gatherRows N D E wf).offCoord (ix2 e c) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)),
      Nat.add_zero]
    unfold GatherDims.start
    rw [dif_pos (show (⟨0, h0⟩ : Fin 2) ∈ (gatherRows N D E wf).startIndexMap from List.mem_singleton.mpr rfl)]
    have hsi : (gatherRows N D E wf).siIdx (ix2 e c) ⟨List.idxOf (⟨0, h0⟩ : Fin 2) (gatherRows N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1⟩ =>
    have hns : (⟨1, h1⟩ : Fin 2) ∉ (gatherRows N D E wf).startIndexMap := fun h =>
      absurd (congrArg Fin.val (List.mem_singleton.mp h)) (show ¬ ((1 : ℕ) = 0) by decide)
    unfold GatherDims.start
    rw [dif_neg hns, Nat.zero_add]
    unfold GatherDims.offCoord
    have hk : (⟨1, h1⟩ : Fin 2) ∈ (gatherRows N D E wf).sKept :=
      (GatherDims.mem_sKept _ _).mpr ⟨fun h => absurd (congrArg Fin.val (List.mem_singleton.mp h)) (show ¬ ((1 : ℕ) = 0) by decide),
        List.not_mem_nil⟩
    rw [dif_pos hk]
    rfl

/-! ## The accumulating row scatter -/

/-- The dimension numbers of `x.at[idx].add(upd)` along axis 0 for `x : [R, D]`, `idx : [E, 1]`, `upd : [E, D]`. -/
abbrev scatterRows (R D E : Nat) (wf : ScatterDims.WF ⟨2, ![R, D]⟩ ⟨2, ![E, 1]⟩ ⟨2, ![E, D]⟩ [1] [0] [0] 1) :
    ScatterDims ⟨2, ![R, D]⟩ ⟨2, ![E, 1]⟩ ⟨2, ![E, D]⟩ where
  updateWindowDims := [1]
  insertedWindowDims := [0]
  scatterDimsToOperandDims := [0]
  indexVectorDim := 1
  wf := wf

section Rows
variable {R D E w : Nat} (wf : ScatterDims.WF ⟨2, ![R, D]⟩ ⟨2, ![E, 1]⟩ ⟨2, ![E, D]⟩ [1] [0] [0] 1)
  (idx : IVec ⟨2, ![E, 1]⟩ w) (e : Fin E) (c : Fin D)

/-- On the row axis the window of update `(e, c)` starts at edge `e`'s id, read signed. -/
theorem scatterRows_start0 (h0 : 0 < 2) : (scatterRows R D E wf).start (ix2 e c) idx ⟨0, h0⟩ = (idx (ix2 e 0)).toInt := by
  unfold ScatterDims.start
  rw [dif_pos (show (⟨0, h0⟩ : Fin 2) ∈ (scatterRows R D E wf).scatterDimsToOperandDims from List.mem_singleton.mpr rfl)]
  have hsi : (scatterRows R D E wf).siIdx (ix2 e c) ⟨List.idxOf (⟨0, h0⟩ : Fin 2) (scatterRows R D E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem scatterRows_start1 (h1 : 1 < 2) : (scatterRows R D E wf).start (ix2 e c) idx ⟨1, h1⟩ = 0 := by
  unfold ScatterDims.start
  rw [dif_neg (fun h => absurd (congrArg Fin.val (List.mem_singleton.mp h)) (show ¬ ((1 : ℕ) = 0) by decide))]

/-- The row axis is inserted: no window coordinate there. -/
theorem scatterRows_window0 (h0 : 0 < 2) : (scatterRows R D E wf).window (ix2 e c) ⟨0, h0⟩ = 0 := by
  unfold ScatterDims.window
  rw [dif_neg (fun h => (of_decide_eq_true (List.mem_filter.mp h).2) (List.mem_singleton.mpr rfl))]

/-- The column axis carries the update's column. -/
theorem scatterRows_window1 (h1 : 1 < 2) : (scatterRows R D E wf).window (ix2 e c) ⟨1, h1⟩ = c.val := by
  unfold ScatterDims.window
  have hk : (⟨1, h1⟩ : Fin 2) ∈ (scatterRows R D E wf).sKept :=
    List.mem_filter.mpr ⟨List.mem_finRange _, decide_eq_true (fun h =>
      absurd (congrArg Fin.val (List.mem_singleton.mp h)) (show ¬ ((1 : ℕ) = 0) by decide))⟩
  rw [dif_pos hk]
  rfl

/-- Update `(e, c)` lands on entry `(i, c')` exactly when edge `e`'s id, read signed, is `i` and the columns agree. -/
theorem scatterRows_resultIdx_iff (i : Fin R) (c' : Fin D) :
    (scatterRows R D E wf).resultIdx? (ix2 e c) idx = some (ix2 i c') ↔ (idx (ix2 e 0)).toInt = (i.val : ℤ) ∧ c = c' := by
  unfold ScatterDims.resultIdx?
  constructor
  · intro h
    split at h
    · next hall =>
      have h' := Option.some.inj h
      have e0 := congrArg (fun f => (f ⟨0, Nat.zero_lt_two⟩ : Fin _).val) h'
      have e1 := congrArg (fun f => (f ⟨1, Nat.one_lt_two⟩ : Fin _).val) h'
      simp only [scatterRows_start0, scatterRows_start1, scatterRows_window0, scatterRows_window1] at e0 e1
      have b0 := hall ⟨0, Nat.zero_lt_two⟩
      simp only [scatterRows_start0, scatterRows_window0] at b0
      refine ⟨?_, Fin.ext ?_⟩
      · have : ((idx (ix2 e 0)).toInt + ((0 : ℕ) : ℤ)).toNat = i.val := e0
        omega
      · have : ((0 : ℤ) + (c.val : ℤ)).toNat = c'.val := e1
        omega
    · exact absurd h (by simp)
  · rintro ⟨hi, rfl⟩
    have hall : ∀ a : Fin 2, 0 ≤ (scatterRows R D E wf).start (ix2 e c) idx a + (scatterRows R D E wf).window (ix2 e c) a
        ∧ (scatterRows R D E wf).start (ix2 e c) idx a + (scatterRows R D E wf).window (ix2 e c) a < (⟨2, ![R, D]⟩ : Shape).size a := by
      intro a
      match a with
      | ⟨0, h0⟩ =>
        rw [scatterRows_start0, scatterRows_window0, hi]
        have := i.isLt
        refine ⟨by omega, ?_⟩
        show (i.val : ℤ) + ((0 : ℕ) : ℤ) < (R : ℤ)
        omega
      | ⟨1, h1⟩ =>
        rw [scatterRows_start1, scatterRows_window1]
        have := c.isLt
        refine ⟨by omega, ?_⟩
        show (0 : ℤ) + (c.val : ℤ) < (D : ℤ)
        omega
    rw [dif_pos hall]
    congr 1
    funext a
    refine Fin.ext ?_
    match a with
    | ⟨0, h0⟩ =>
      show ((scatterRows R D E wf).start (ix2 e c) idx ⟨0, h0⟩ + (scatterRows R D E wf).window (ix2 e c) ⟨0, h0⟩).toNat = i.val
      rw [scatterRows_start0, scatterRows_window0, hi]; omega
    | ⟨1, h1⟩ =>
      show ((scatterRows R D E wf).start (ix2 e c) idx ⟨1, h1⟩ + (scatterRows R D E wf).window (ix2 e c) ⟨1, h1⟩).toNat = c.val
      rw [scatterRows_start1, scatterRows_window1]; omega

end Rows

/-- THE ACCUMULATING ROW SCATTER READ AT `(i, c)`, over the extended reals: the operand's entry plus the sum over the
    edges whose id, read signed, is `i` of the update row's entry in column `c`. -/
theorem scatterAdd_rows_apply {R D E w : Nat} (wf : ScatterDims.WF ⟨2, ![R, D]⟩ ⟨2, ![E, 1]⟩ ⟨2, ![E, D]⟩ [1] [0] [0] 1)
    (x : (⟨2, ![R, D]⟩ : Shape).Idx → EReal) (idx : IVec ⟨2, ![E, 1]⟩ w) (upd : (⟨2, ![E, D]⟩ : Shape).Idx → EReal)
    (i : Fin R) (c : Fin D) :
    Ideal.hostScatterAdd (scatterRows R D E wf) x idx upd (ix2 i c)
      = x (ix2 i c) + ∑ e : Fin E, if (idx (ix2 e 0)).toInt = (i.val : ℤ) then upd (ix2 e c) else 0 := by
  unfold Ideal.hostScatterAdd
  congr 1
  rw [Finset.sum_filter, sum_idx2]
  refine Finset.sum_congr rfl fun e _ => ?_
  simp only [scatterRows_resultIdx_iff]
  by_cases he : (idx (ix2 e 0)).toInt = (i.val : ℤ)
  · simp only [he, true_and, if_true]
    rw [Finset.sum_ite_eq' Finset.univ c (fun c' => upd (ix2 e c'))]
    simp
  · simp only [he, false_and, if_false, Finset.sum_const_zero]

/-! ## The accumulating scatter of scalars (a count per segment) -/

/-- The dimension numbers of `x.at[idx].add(upd)` for `x : [R]`, `idx : [E, 1]`, `upd : [E]`. -/
abbrev scatterSegs (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

section Segs
variable {R E w : Nat} (wf : ScatterDims.WF ⟨1, ![R]⟩ ⟨2, ![E, 1]⟩ ⟨1, ![E]⟩ [] [0] [0] 1)
  (idx : IVec ⟨2, ![E, 1]⟩ w) (e : Fin E)

theorem scatterSegs_start0 (h0 : 0 < 1) : (scatterSegs R E wf).start (ix1 e) idx ⟨0, h0⟩ = (idx (ix2 e 0)).toInt := by
  unfold ScatterDims.start
  rw [dif_pos (show (⟨0, h0⟩ : Fin 1) ∈ (scatterSegs R E wf).scatterDimsToOperandDims from List.mem_singleton.mpr rfl)]
  have hsi : (scatterSegs R E wf).siIdx (ix1 e) ⟨List.idxOf (⟨0, h0⟩ : Fin 1) (scatterSegs R E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scatterSegs_window0 (h0 : 0 < 1) : (scatterSegs R E wf).window (ix1 e) ⟨0, h0⟩ = 0 := by
  unfold ScatterDims.window
  rw [dif_neg (fun h => (of_decide_eq_true (List.mem_filter.mp h).2) (List.mem_singleton.mpr rfl))]

/-- Update `e` lands on segment `i` exactly when edge `e`'s id, read signed, is `i`. -/
theorem scatterSegs_resultIdx_iff (i : Fin R) :
    (scatterSegs R E wf).resultIdx? (ix1 e) idx = some (ix1 i) ↔ (idx (ix2 e 0)).toInt = (i.val : ℤ) := by
  unfold ScatterDims.resultIdx?
  constructor
  · intro h
    split at h
    · next hall =>
      have h' := Option.some.inj h
      have e0 := congrArg (fun f => (f ⟨0, Nat.zero_lt_one⟩ : Fin _).val) h'
      simp only [scatterSegs_start0, scatterSegs_window0] at e0
      have b0 := hall ⟨0, Nat.zero_lt_one⟩
      simp only [scatterSegs_start0, scatterSegs_window0] at b0
      have : ((idx (ix2 e 0)).toInt + ((0 : ℕ) : ℤ)).toNat = i.val := e0
      omega
    · exact absurd h (by simp)
  · intro hi
    have hall : ∀ a : Fin 1, 0 ≤ (scatterSegs R E wf).start (ix1 e) idx a + (scatterSegs R E wf).window (ix1 e) a
        ∧ (scatterSegs R E wf).start (ix1 e) idx a + (scatterSegs R E wf).window (ix1 e) a < (⟨1, ![R]⟩ : Shape).size a := by
      intro a
      match a with
      | ⟨0, h0⟩ =>
        rw [scatterSegs_start0, scatterSegs_window0, hi]
        have := i.isLt
        refine ⟨by omega, ?_⟩
        show (i.val : ℤ) + ((0 : ℕ) : ℤ) < (R : ℤ)
        omega
    rw [dif_pos hall]
    congr 1
    funext a
    refine Fin.ext ?_
    match a with
    | ⟨0, h0⟩ =>
      show ((scatterSegs R E wf).start (ix1 e) idx ⟨0, h0⟩ + (scatterSegs R E wf).window (ix1 e) ⟨0, h0⟩).toNat = i.val
      rw [scatterSegs_start0, scatterSegs_window0, hi]; omega

end Segs

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine (Fintype.sum_equiv (⟨fun i => i 0, fun a => ix1 a, fun i => (eq_ix1 i).symm, fun _ => rfl⟩ :
    (⟨1, ![n]⟩ : Shape).Idx ≃ Fin n) _ _ fun i => congrArg f (eq_ix1 i))

/-- THE ACCUMULATING SCALAR SCATTER READ AT SEGMENT `i`, over the extended reals: the operand's entry plus the sum over
    the edges whose id, read signed, is `i` of the update's entry. -/
theorem scatterAdd_segs_apply {R E w : Nat} (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ w) (upd : (⟨1, ![E]⟩ : Shape).Idx → EReal) (i : Fin R) :
    Ideal.hostScatterAdd (scatterSegs R E wf) x idx upd (ix1 i)
      = x (ix1 i) + ∑ e : Fin E, if (idx (ix2 e 0)).toInt = (i.val : ℤ) then upd (ix1 e) else 0 := by
  unfold Ideal.hostScatterAdd
  congr 1
  rw [Finset.sum_filter, sum_idx1]
  refine Finset.sum_congr rfl fun e _ => ?_
  simp only [scatterSegs_resultIdx_iff]

end Idealize.ShloMosaic.RowScatter

end
-- ==== Proof.LibEdgeReads.lean ====
/-
  Small layout reads on edge lists and per-edge vectors, generic in the number of edges.

  • Row 0 / row 1 of an edge list `[2, E]`, flattened to a vector `[E]`, at position `e` is the list's entry
    `(0, e)` / `(1, e)`.
  • A vector `[n]` kept as a column `[n, 1]` reads, at `(p, 0)`, the vector at `p`; a column `[n, 1]` spread over
    `m` lanes reads, at `(p, q)`, the column at `(p, 0)`; a scalar spread over a vector reads the scalar.
-/
import Idealize.ShloMosaic.PureOps.Ideal
import Idealize.ShloMosaic.Lib.ValueIdx
import Idealize.ShloMosaic.Lib.Pipeline.Value

noncomputable section

namespace Idealize.ShloMosaic.EdgeReads

open Idealize.ShloMosaic Idealize.ShloMosaic.ValueIdx

variable {α : Type}

/-- Row 0 of a `[2, E]` array, flattened, at position `e`. -/
theorem row0_apply {E : Nat} (hs : (⟨2, ![2, E]⟩ : Shape).Slices ![0, 0] ⟨2, ![1, E]⟩)
    (hc : (⟨2, ![1, E]⟩ : Shape).ShapeCasts ⟨1, ![E]⟩) (I : (⟨2, ![2, E]⟩ : Shape).Idx → α) (e : Fin E) :
    shapeCast ⟨1, ![E]⟩ (extractStridedSlice ⟨2, ![1, E]⟩ ![0, 0] I hs) hc (ix1 e) = I (ix2 0 e) := by
  rw [shapeCast_apply _ hc (ix1 e) (ix2 0 e) (by
    rw [Shape.rowMajor_val_two, Shape.rowMajor_val_one]; show 0 * E + e.val = e.val; omega)]
  exact extractStridedSlice_apply ![0, 0] I hs (ix2 0 e) (ix2 0 e) (fun a => match a with
    | ⟨0, _⟩ => rfl
    | ⟨1, _⟩ => by show e.val = 0 + e.val; omega)

/-- Row 1 of a `[2, E]` array, flattened, at position `e`. -/
theorem row1_apply {E : Nat} (hs : (⟨2, ![2, E]⟩ : Shape).Slices ![1, 0] ⟨2, ![1, E]⟩)
    (hc : (⟨2, ![1, E]⟩ : Shape).ShapeCasts ⟨1, ![E]⟩) (I : (⟨2, ![2, E]⟩ : Shape).Idx → α) (e : Fin E) :
    shapeCast ⟨1, ![E]⟩ (extractStridedSlice ⟨2, ![1, E]⟩ ![1, 0] I hs) hc (ix1 e) = I (ix2 1 e) := by
  rw [shapeCast_apply _ hc (ix1 e) (ix2 0 e) (by
    rw [Shape.rowMajor_val_two, Shape.rowMajor_val_one]; show 0 * E + e.val = e.val; omega)]
  exact extractStridedSlice_apply ![1, 0] I hs (ix2 0 e) (ix2 1 e) (fun a => match a with
    | ⟨0, _⟩ => rfl
    | ⟨1, _⟩ => by show e.val = 0 + e.val; omega)

/-- A vector kept as a column. -/
theorem col_apply {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p 0) = v (ix1 p) :=
  broadcastInDim_apply _ h v (ix2 p 0) (ix1 p) (fun a => match a with
    | ⟨0, _⟩ => by
      show p.val = if n = 1 then 0 else p.val
      have := p.isLt
      split <;> omega)

/-- A column spread over `m` lanes. -/
theorem lanes_apply {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) :=
  broadcastInDim_apply _ h v (ix2 p q) (ix2 p 0) (fun a => match a with
    | ⟨0, _⟩ => by
      show p.val = if n = 1 then 0 else p.val
      have := p.isLt
      split <;> omega
    | ⟨1, _⟩ => by
      show (0 : ℕ) = if (1 : ℕ) = 1 then 0 else q.val
      rw [if_pos rfl])

/-- A scalar spread over any shape. -/
theorem splat_apply {t : Shape} (h : (⟨0, ![]⟩ : Shape).BroadcastsInDim t ![]) (v : (⟨0, ![]⟩ : Shape).Idx → α) (j : t.Idx) :
    broadcastInDim t ![] h v j = v ix0 :=
  broadcastInDim_apply _ h v j ix0 (fun a => a.elim0)

end Idealize.ShloMosaic.EdgeReads

end
-- ==== Proof.Spec.lean ====
/-
  The two-relation GraphConv as one function of the fourteen inputs, over the extended reals.

  Nodes of type a and b, 50000 each, with 128 features; each relation has 400000 message edges (weight one) and 50000
  target edges (weight `w`). An edge list is an integer array `[2, E]`: row 0 the source ids, row 1 the destination
  ids. For the relation that sends messages from `X`'s nodes to `Xd`'s nodes:

    sum   n k = Σ over message edges into n of X[src, k]  +  Σ over target edges into n of w · X[src, k]
    count n   = (number of message edges into n)          +  (number of target edges into n)
    out   n h = ( Σ_k (sum n k / max (count n) 1) · Wrel[h, k]  +  b[h] )  +  Σ_k Xd[n, k] · Wroot[h, k]

  A source id reads the table as jnp indexing does: a negative id counts from the end, and the result is clamped into
  the table. "Edge e goes into node n" means its destination id, read as a signed integer, IS n; an id outside
  [0, 50000) goes into no node. The result stacks the relation b→a (output for a's nodes) over a→b (for b's).
-/
import Idealize.ShloMosaic.PureOps.Ideal
import Idealize.ShloMosaic.Lib.ValueIdx
import proofs.«422597_j16389595201849_3_alg».proof.Proof.LibRowScatter

noncomputable section

open scoped BigOperators

namespace GraphConv

open Idealize.ShloMosaic Idealize.ShloMosaic.ValueIdx Idealize.ShloMosaic.RowScatter

/-- A node-feature table. -/
abbrev Tbl : Type := (⟨2, ![50000, 128]⟩ : Shape).Idx → EReal
/-- An edge list of `E` edges: row 0 the source ids, row 1 the destination ids. -/
abbrev Edges (E : Nat) : Type := IVec ⟨2, ![2, E]⟩ 32
/-- A weight per target edge. -/
abbrev Wts : Type := (⟨1, ![50000]⟩ : Shape).Idx → EReal
/-- A 128 × 128 weight matrix, stored output-major: entry `[h, k]`. -/
abbrev Mat : Type := (⟨2, ![128, 128]⟩ : Shape).Idx → EReal
/-- A bias per output feature. -/
abbrev Bias : Type := (⟨1, ![128]⟩ : Shape).Idx → EReal

/-- The real number one, as both programs spell it. -/
abbrev one : EReal := Ideal.ofBits .f32 0x3F800000#32

/-- A negative id counts from the end of the 50000 rows. -/
def wrapId (i : BitVec 32) : BitVec 32 := Scalar.select (IntOp.cmpi .slt i 0#32) (IntOp.addi i 50000#32) i

/-- The table row a source id reads: wrapped, then clamped into the table. -/
def srcRow (i : BitVec 32) : Fin 50000 := rowOf 50000 (by decide) (wrapId i)

/-- The sum of `f` over the edges of one list whose destination id is node `n`. -/
def segSum {E : Nat} (I : Edges E) (f : Fin E → EReal) (n : Fin 50000) : EReal :=
  ∑ e : Fin E, if (I (ix2 1 e)).toInt = (n.val : ℤ) then f e else 0

/-- The summed messages into node `n`, feature `k`. -/
def aggSum (X : Tbl) (Im : Edges 400000) (It : Edges 50000) (w : Wts) (n : Fin 50000) (k : Fin 128) : EReal :=
  segSum Im (fun e => X (ix2 (srcRow (Im (ix2 0 e))) k)) n
    + segSum It (fun e => w (ix1 e) * X (ix2 (srcRow (It (ix2 0 e))) k)) n

/-- The number of edges into node `n`. -/
def aggCnt (Im : Edges 400000) (It : Edges 50000) (n : Fin 50000) : EReal :=
  segSum Im (fun _ => one) n + segSum It (fun _ => one) n

/-- One relation's output at node `n`, feature `h`. -/
def relOut (X Xd : Tbl) (Im : Edges 400000) (It : Edges 50000) (w : Wts) (Wrel Wroot : Mat) (b : Bias)
    (n : Fin 50000) (h : Fin 128) : EReal :=
  ((∑ k : Fin 128, Ideal.div (aggSum X Im It w n k) (max (aggCnt Im It n) one) * Wrel (ix2 h k)) + b (ix1 h))
    + ∑ k : Fin 128, Xd (ix2 n k) * Wroot (ix2 h k)

/-- Both relations, stacked: index 0 the output for a's nodes (relation b→a), index 1 for b's (relation a→b). -/
def G (x_a x_b : Tbl) (msg_ab msg_ba : Edges 400000) (tgt_ab tgt_ba : Edges 50000) (w_ab w_ba : Wts)
    (Wrel_ab Wroot_ab : Mat) (b_ab : Bias) (Wrel_ba Wroot_ba : Mat) (b_ba : Bias) :
    (⟨3, ![2, 50000, 128]⟩ : Shape).Idx → EReal :=
  fun j => if (j 0).val = 0 then relOut x_b x_a msg_ba tgt_ba w_ba Wrel_ba Wroot_ba b_ba (j 1) (j 2)
    else relOut x_a x_b msg_ab tgt_ab w_ab Wrel_ab Wroot_ab b_ab (j 1) (j 2)

/-- A sum over `E₁ + E₂` edges is the sum over the first `E₁` plus the sum over the last `E₂`. -/
theorem sum_fin_split {M : Type*} [AddCommMonoid M] (E₁ E₂ E : ℕ) (h : E₁ + E₂ = E) (g : Fin E → M) :
    ∑ e : Fin E, g e = ∑ a : Fin E₁, g ⟨a.val, by omega⟩ + ∑ b : Fin E₂, g ⟨E₁ + b.val, by omega⟩ := by
  subst h
  rw [Fin.sum_univ_add]
  rfl

/-- An in-range destination id shifted by the 50000 nodes of the other type reads, signed, as the id plus 50000. -/
theorem toInt_add_nodes (d : BitVec 32) (h0 : 0 ≤ d.toInt) (h1 : d.toInt < 50000) :
    (IntOp.addi d 50000#32).toInt = d.toInt + 50000 := by
  unfold IntOp.addi
  rw [BitVec.toInt_add]
  have h5 : (50000#32 : BitVec 32).toInt = 50000 := by decide
  rw [h5]
  exact Int.bmod_eq_of_le_mul_two (by omega) (by omega)

end GraphConv

end
-- ==== Proof.KernelHostReads.lean ====
/-
  The kernel program's host functions read at an index, over the extended reals.

  The four accumulating scatters share one space of 2 · 50000 segments: relation b→a's destination ids go in as they
  are, relation a→b's shifted by 50000. When every destination id is in [0, 50000):
    • at a row `n` of the LOWER half, an unshifted id lands exactly when it is `n`, and a shifted id (≥ 50000) never;
    • at a row `50000 + n` of the UPPER half, an unshifted id (< 50000) never lands, and a shifted id exactly when the id
      is `n`.
  (The halves themselves are read in KernelHostHalves.lean.)
-/
import proofs.«422597_j16389595201849_3_alg».proof.Proof.KernelHostTerms
import proofs.«422597_j16389595201849_3_alg».proof.Proof.LibRowScatter
import proofs.«422597_j16389595201849_3_alg».proof.Proof.LibEdgeReads
import proofs.«422597_j16389595201849_3_alg».proof.Proof.Spec
import Idealize.ShloMosaic.PureOps.Ideal.Laws
import Idealize.ShloMosaic.Lib.Pipeline.Value
import Idealize.ShloMosaic.Lib.ValueIdx

noncomputable section

open scoped BigOperators

namespace Cert.KernelIdeal.KHost

open Cert.KernelIdeal Idealize.ShloMosaic Idealize.ShloMosaic.ValueIdx Idealize.ShloMosaic.RowScatter
  Idealize.ShloMosaic.EdgeReads GraphConv
open Facts₀ Facts

variable [Facts]

/-! ## Segment sums under the range precondition -/

section Seg
variable {E : Nat} (I : Edges E) (f : Fin E → EReal)

/-- At a lower-half row an unshifted id lands exactly when it is that node. -/
theorem seg_plain_lo (n : Fin 50000) (i : ℤ) (hi : i = (n.val : ℤ)) :
    (∑ e : Fin E, if (I (ix2 1 e)).toInt = i then f e else 0) = segSum I f n := by
  subst hi; rfl

/-- At an upper-half row an unshifted in-range id never lands. -/
theorem seg_plain_hi (hI : ∀ e : Fin E, 0 ≤ (I (ix2 1 e)).toInt ∧ (I (ix2 1 e)).toInt < 50000) (i : ℤ) (hi : 50000 ≤ i) :
    (∑ e : Fin E, if (I (ix2 1 e)).toInt = i then f e else 0) = 0 :=
  Finset.sum_eq_zero fun e _ => if_neg (by have := hI e; omega)

/-- At a lower-half row a shifted in-range id never lands. -/
theorem seg_shift_lo (hI : ∀ e : Fin E, 0 ≤ (I (ix2 1 e)).toInt ∧ (I (ix2 1 e)).toInt < 50000) (i : ℤ) (hi : i < 50000) :
    (∑ e : Fin E, if (IntOp.addi (I (ix2 1 e)) 50000#32).toInt = i then f e else 0) = 0 :=
  Finset.sum_eq_zero fun e _ => if_neg (by
    have := hI e
    rw [toInt_add_nodes _ this.1 this.2]; omega)

/-- At the upper-half row of node `n` a shifted in-range id lands exactly when the id is `n`. -/
theorem seg_shift_hi (hI : ∀ e : Fin E, 0 ≤ (I (ix2 1 e)).toInt ∧ (I (ix2 1 e)).toInt < 50000) (n : Fin 50000) (i : ℤ)
    (hi : i = 50000 + (n.val : ℤ)) :
    (∑ e : Fin E, if (IntOp.addi (I (ix2 1 e)) 50000#32).toInt = i then f e else 0) = segSum I f n := by
  unfold segSum
  refine Finset.sum_congr rfl fun e _ => ?_
  have := hI e
  rw [toInt_add_nodes _ this.1 this.2]
  subst hi
  by_cases h : (I (ix2 1 e)).toInt = (n.val : ℤ)
  · rw [if_pos h, if_pos (by omega)]
  · rw [if_neg h, if_neg (by omega)]

end Seg

/-! ## The rows of an edge list, the wrapped and the shifted ids -/

theorem srcM_apply (I : IVec S2x400000 32) (e : Fin 400000) : srcM I (ix1 e) = I (ix2 0 e) := by
  unfold srcM; exact row0_apply _ _ I e
theorem dstM_apply (I : IVec S2x400000 32) (e : Fin 400000) : dstM I (ix1 e) = I (ix2 1 e) := by
  unfold dstM; exact row1_apply _ _ I e
theorem srcT_apply (I : IVec S2x50000 32) (e : Fin 50000) : srcT I (ix1 e) = I (ix2 0 e) := by
  unfold srcT; exact row0_apply _ _ I e
theorem dstT_apply (I : IVec S2x50000 32) (e : Fin 50000) : dstT I (ix1 e) = I (ix2 1 e) := by
  unfold dstT; exact row1_apply _ _ I e

theorem wrapM_apply (v : IVec S400000 32) (e : Fin 400000) : wrapM v (ix1 e) = wrapId (v (ix1 e)) := by
  unfold wrapM wrapId
  show Scalar.select (IntOp.cmpi .slt (v (ix1 e)) (broadcastInDim S400000 ![] bcast_S_S400000 (constantI S_ 32 0#32) (ix1 e)))
      (IntOp.addi (v (ix1 e)) (broadcastInDim S400000 ![] bcast_S_S400000 (constantI S_ 32 50000#32) (ix1 e))) (v (ix1 e)) = _
  rw [splat_apply, splat_apply]
  rfl
theorem wrapT_apply (v : IVec S50000 32) (e : Fin 50000) : wrapT v (ix1 e) = wrapId (v (ix1 e)) := by
  unfold wrapT wrapId
  show Scalar.select (IntOp.cmpi .slt (v (ix1 e)) (broadcastInDim S50000 ![] bcast_S_S50000 (constantI S_ 32 0#32) (ix1 e)))
      (IntOp.addi (v (ix1 e)) (broadcastInDim S50000 ![] bcast_S_S50000 (constantI S_ 32 50000#32) (ix1 e))) (v (ix1 e)) = _
  rw [splat_apply, splat_apply]
  rfl

theorem shiftM_apply (v : IVec S400000 32) (e : Fin 400000) : shiftM v (ix1 e) = IntOp.addi (v (ix1 e)) 50000#32 := by
  unfold shiftM
  show IntOp.addi (v (ix1 e)) (broadcastInDim S400000 ![] bcast_S_S400000 (constantI S_ 32 50000#32) (ix1 e)) = _
  rw [splat_apply]
  rfl
theorem shiftT_apply (v : IVec S50000 32) (e : Fin 50000) : shiftT v (ix1 e) = IntOp.addi (v (ix1 e)) 50000#32 := by
  unfold shiftT
  show IntOp.addi (v (ix1 e)) (broadcastInDim S50000 ![] bcast_S_S50000 (constantI S_ 32 50000#32) (ix1 e)) = _
  rw [splat_apply]
  rfl

/-! ## The gathered rows -/

theorem gatM_apply (X : FVec Ideal S50000x128 .f32) (I : IVec S2x400000 32) (e : Fin 400000) (k : Fin 128) :
    gatM X I (ix2 e k) = X (ix2 (srcRow (I (ix2 0 e))) k) := by
  unfold gatM
  refine (gather_rows_apply (N := 50000) (D := 128) (E := 400000) (by decide)
    gather_S50000x128_S400000x1_S400000x128_1_0_n_n_0_1_1128_wf X _ e k).trans ?_
  rw [col_apply, wrapM_apply, srcM_apply]
  rfl

theorem gatT_apply (X : FVec Ideal S50000x128 .f32) (I : IVec S2x50000 32) (w : FVec Ideal S50000 .f32) (e : Fin 50000)
    (k : Fin 128) : gatT X I w (ix2 e k) = w (ix1 e) * X (ix2 (srcRow (I (ix2 0 e))) k) := by
  unfold gatT
  show broadcastInDim S50000x128 ![0, 1] bcast_S50000x1_S50000x128_0_1
      (broadcastInDim S50000x1 ![0] bcast_S50000_S50000x1_0 w) (ix2 e k)
    * Host.gather gather_S50000x128_S50000x1_S50000x128_1_0_n_n_0_1_1128 X
        (broadcastInDim S50000x1 ![0] bcast_S50000_S50000x1_0 (wrapT (srcT I))) (ix2 e k) = _
  rw [lanes_apply, col_apply]
  refine congrArg (w (ix1 e) * ·) ?_
  refine (gather_rows_apply (N := 50000) (D := 128) (E := 50000) (by decide)
    gather_S50000x128_S50000x1_S50000x128_1_0_n_n_0_1_1128_wf X _ e k).trans ?_
  rw [col_apply, wrapT_apply, srcT_apply]
  rfl

end Cert.KernelIdeal.KHost

end
-- ==== Proof.KernelHostScatters.lean ====
/-
  The four accumulating scatters of the kernel program's host side, read at an index over the extended reals: each starts
  from zero, so its entry at a row is the sum, over the edges whose (possibly shifted) destination id read as a signed
  integer is that row, of the edge's update (a gathered feature row's entry, or one).

  The law is proved once for any numbers of rows, columns and edges, and then read at this program's extents.
-/
import proofs.«422597_j16389595201849_3_alg».proof.Proof.KernelHostTerms
import proofs.«422597_j16389595201849_3_alg».proof.Proof.LibRowScatter
import proofs.«422597_j16389595201849_3_alg».proof.Proof.LibEdgeReads
import proofs.«422597_j16389595201849_3_alg».proof.Proof.Spec
import Idealize.ShloMosaic.PureOps.Ideal.Laws
import Idealize.ShloMosaic.Lib.Pipeline.Value
import Idealize.ShloMosaic.Lib.ValueIdx

noncomputable section

open scoped BigOperators

namespace Cert.KernelIdeal.KHost

open Cert.KernelIdeal Idealize.ShloMosaic Idealize.ShloMosaic.ValueIdx Idealize.ShloMosaic.RowScatter
  Idealize.ShloMosaic.EdgeReads GraphConv
open Facts₀ Facts

/-! ## An accumulating scatter from zero, for any extents -/

/-- Update rows `upd : [E, D]` accumulated into `R` zero rows along the ids `dst : [E]` kept as a column: entry `(i, k)` is
    the sum, over the edges whose id read signed is `i`, of the update row's entry in column `k`. -/
theorem rows_from_zero {R D E w : Nat}
    (wf : ScatterDims.WF ⟨2, ![R, D]⟩ ⟨2, ![E, 1]⟩ ⟨2, ![E, D]⟩ [1] [0] [0] 1)
    (d : ScatterDims ⟨2, ![R, D]⟩ ⟨2, ![E, 1]⟩ ⟨2, ![E, D]⟩) (hd : d = scatterRows R D E wf)
    (hz : (⟨0, ![]⟩ : Shape).BroadcastsInDim ⟨2, ![R, D]⟩ ![])
    (hc : (⟨1, ![E]⟩ : Shape).BroadcastsInDim ⟨2, ![E, 1]⟩ ![0])
    (dst : IVec ⟨1, ![E]⟩ w) (upd : FVec Ideal ⟨2, ![E, D]⟩ .f32) (i : Fin R) (k : Fin D) :
    Host.scatterAdd (F := Ideal) (φ := .f32) d
        (broadcastInDim ⟨2, ![R, D]⟩ ![] hz (constant (F := Ideal) ⟨0, ![]⟩ .f32 0x00000000#32))
        (broadcastInDim ⟨2, ![E, 1]⟩ ![0] hc dst) upd (ix2 i k)
      = ∑ e : Fin E, if (dst (ix1 e)).toInt = (i.val : ℤ) then upd (ix2 e k) else 0 := by
  subst hd
  unfold Host.scatterAdd
  rw [Ideal.hostScatterAdd_def, scatterAdd_rows_apply, splat_apply, constant_apply, Ideal.ofBits_zero_f32, zero_add]
  refine Finset.sum_congr rfl fun e _ => ?_
  rw [col_apply]

/-- One per edge accumulated into `R` zero segments along the ids `dst : [E]` kept as a column: segment `i` counts one for
    every edge whose id read signed is `i`. -/
theorem segs_from_zero {R E w : Nat}
    (wf : ScatterDims.WF ⟨1, ![R]⟩ ⟨2, ![E, 1]⟩ ⟨1, ![E]⟩ [] [0] [0] 1)
    (d : ScatterDims ⟨1, ![R]⟩ ⟨2, ![E, 1]⟩ ⟨1, ![E]⟩) (hd : d = scatterSegs R E wf)
    (hz : (⟨0, ![]⟩ : Shape).BroadcastsInDim ⟨1, ![R]⟩ ![])
    (hc : (⟨1, ![E]⟩ : Shape).BroadcastsInDim ⟨2, ![E, 1]⟩ ![0])
    (ho : (⟨0, ![]⟩ : Shape).BroadcastsInDim ⟨1, ![E]⟩ ![])
    (dst : IVec ⟨1, ![E]⟩ w) (i : Fin R) :
    Host.scatterAdd (F := Ideal) (φ := .f32) d
        (broadcastInDim ⟨1, ![R]⟩ ![] hz (constant (F := Ideal) ⟨0, ![]⟩ .f32 0x00000000#32))
        (broadcastInDim ⟨2, ![E, 1]⟩ ![0] hc dst)
        (broadcastInDim ⟨1, ![E]⟩ ![] ho (constant (F := Ideal) ⟨0, ![]⟩ .f32 0x3F800000#32)) (ix1 i)
      = ∑ e : Fin E, if (dst (ix1 e)).toInt = (i.val : ℤ) then one else 0 := by
  subst hd
  unfold Host.scatterAdd
  rw [Ideal.hostScatterAdd_def, scatterAdd_segs_apply, splat_apply, constant_apply, Ideal.ofBits_zero_f32, zero_add]
  refine Finset.sum_congr rfl fun e _ => ?_
  rw [col_apply, splat_apply, constant_apply]

/-! ## The program's four scatters -/

variable [Facts]

theorem dimsRowsM : scatter_S100000x128_S400000x1_S400000x128_1_0_0_1
    = scatterRows 100000 128 400000 scatter_S100000x128_S400000x1_S400000x128_1_0_0_1_wf := rfl
theorem dimsRowsT : scatter_S100000x128_S50000x1_S50000x128_1_0_0_1
    = scatterRows 100000 128 50000 scatter_S100000x128_S50000x1_S50000x128_1_0_0_1_wf := rfl
theorem dimsSegsM : scatter_S100000_S400000x1_S400000_n_0_0_1
    = scatterSegs 100000 400000 scatter_S100000_S400000x1_S400000_n_0_0_1_wf := rfl
theorem dimsSegsT : scatter_S100000_S50000x1_S50000_n_0_0_1
    = scatterSegs 100000 50000 scatter_S100000_S50000x1_S50000_n_0_0_1_wf := rfl

theorem scM_apply (dst : IVec S400000 32) (upd : FVec Ideal S400000x128 .f32) (i : Fin 100000) (k : Fin 128) :
    scM dst upd (ix2 i k) = ∑ e : Fin 400000, if (dst (ix1 e)).toInt = (i.val : ℤ) then upd (ix2 e k) else 0 := by
  unfold scM
  exact rows_from_zero scatter_S100000x128_S400000x1_S400000x128_1_0_0_1_wf _ dimsRowsM
    bcast_S_S100000x128 bcast_S400000_S400000x1_0 dst upd i k

theorem scT_apply (dst : IVec S50000 32) (upd : FVec Ideal S50000x128 .f32) (i : Fin 100000) (k : Fin 128) :
    scT dst upd (ix2 i k) = ∑ e : Fin 50000, if (dst (ix1 e)).toInt = (i.val : ℤ) then upd (ix2 e k) else 0 := by
  unfold scT
  exact rows_from_zero scatter_S100000x128_S50000x1_S50000x128_1_0_0_1_wf _ dimsRowsT
    bcast_S_S100000x128 bcast_S50000_S50000x1_0 dst upd i k

theorem ctM_apply (dst : IVec S400000 32) (i : Fin 100000) :
    ctM (F := Ideal) dst (ix1 i) = ∑ e : Fin 400000, if (dst (ix1 e)).toInt = (i.val : ℤ) then one else 0 := by
  unfold ctM
  exact segs_from_zero scatter_S100000_S400000x1_S400000_n_0_0_1_wf _ dimsSegsM
    bcast_S_S100000 bcast_S400000_S400000x1_0 bcast_S_S400000 dst i

theorem ctT_apply (dst : IVec S50000 32) (i : Fin 100000) :
    ctT (F := Ideal) dst (ix1 i) = ∑ e : Fin 50000, if (dst (ix1 e)).toInt = (i.val : ℤ) then one else 0 := by
  unfold ctT
  exact segs_from_zero scatter_S100000_S50000x1_S50000_n_0_0_1_wf _ dimsSegsT
    bcast_S_S100000 bcast_S50000_S50000x1_0 bcast_S_S50000 dst i

end Cert.KernelIdeal.KHost

end
-- ==== Proof.KernelHostHalves.lean ====
/-
  The two halves of the shared segment space.

  The four accumulating scatters share one space of 2 · 50000 segments: relation b→a's destination ids go in as they
  are, relation a→b's shifted by 50000. When every destination id is in [0, 50000), the lower half holds relation b→a's
  segment sums and counts and the upper half relation a→b's: `s_read`, `c_read`.
-/
import proofs.«422597_j16389595201849_3_alg».proof.Proof.KernelHostReads
import proofs.«422597_j16389595201849_3_alg».proof.Proof.KernelHostScatters

noncomputable section

open scoped BigOperators

namespace Cert.KernelIdeal.KHost

open Cert.KernelIdeal Idealize.ShloMosaic Idealize.ShloMosaic.ValueIdx Idealize.ShloMosaic.RowScatter
  Idealize.ShloMosaic.EdgeReads GraphConv
open Facts₀ Facts

variable [Facts]

/-! ## The two halves of the shared segment space -/

/-- The shared space's row for relation `r`, node `n`. -/
def seg (r : Fin 2) (n : Fin 50000) : Fin 100000 := ⟨r.val * 50000 + n.val, by have := r.isLt; have := n.isLt; omega⟩

theorem sAll_apply (x0 x1 : FVec Ideal S50000x128 .f32) (x2 x3 : IVec S2x400000 32) (x4 x5 : IVec S2x50000 32)
    (x6 x7 : FVec Ideal S50000 .f32) (r : Fin 2) (n : Fin 50000) (k : Fin 128) :
    sAll x0 x1 x2 x3 x4 x5 x6 x7 (ix3 r n k)
      = ((scM (dstM x3) (gatM x1 x3) (ix2 (seg r n) k) + scT (dstT x5) (gatT x1 x5 x7) (ix2 (seg r n) k))
          + scM (shiftM (dstM x2)) (gatM x0 x2) (ix2 (seg r n) k)) + scT (shiftT (dstT x4)) (gatT x0 x4 x6) (ix2 (seg r n) k) := by
  unfold sAll
  rw [shapeCast_apply _ shapeCasts_S100000x128_S2x50000x128 (ix3 r n k) (ix2 (seg r n) k) (by
    rw [Shape.rowMajor_val_three, Shape.rowMajor_val_two]; rfl)]
  rw [addf_apply, addf_apply, addf_apply]

theorem cAll_apply (x2 x3 : IVec S2x400000 32) (x4 x5 : IVec S2x50000 32) (r : Fin 2) (n : Fin 50000) :
    cAll (F := Ideal) x2 x3 x4 x5 (ix3 r n 0)
      = ((ctM (dstM x3) (ix1 (seg r n)) + ctT (dstT x5) (ix1 (seg r n))) + ctM (shiftM (dstM x2)) (ix1 (seg r n)))
          + ctT (shiftT (dstT x4)) (ix1 (seg r n)) := by
  unfold cAll
  rw [shapeCast_apply _ shapeCasts_S100000_S2x50000x1 (ix3 r n 0) (ix1 (seg r n)) (by
    rw [Shape.rowMajor_val_three, Shape.rowMajor_val_one]; show r.val * 50000 + n.val = (r.val * 50000 + n.val) * 1 + 0; omega)]
  rw [addf_apply, addf_apply, addf_apply]

variable (x0 x1 : FVec Ideal S50000x128 .f32) (x2 x3 : IVec S2x400000 32) (x4 x5 : IVec S2x50000 32)
  (x6 x7 : FVec Ideal S50000 .f32)
  (h2 : ∀ e : Fin 400000, 0 ≤ (x2 (ix2 1 e)).toInt ∧ (x2 (ix2 1 e)).toInt < 50000)
  (h3 : ∀ e : Fin 400000, 0 ≤ (x3 (ix2 1 e)).toInt ∧ (x3 (ix2 1 e)).toInt < 50000)
  (h4 : ∀ e : Fin 50000, 0 ≤ (x4 (ix2 1 e)).toInt ∧ (x4 (ix2 1 e)).toInt < 50000)
  (h5 : ∀ e : Fin 50000, 0 ≤ (x5 (ix2 1 e)).toInt ∧ (x5 (ix2 1 e)).toInt < 50000)

include h2 h3 h4 h5 in
/-- THE SUMMED MESSAGES the region finds: relation b→a's in the lower half, relation a→b's in the upper. -/
theorem s_read (r : Fin 2) (n : Fin 50000) (k : Fin 128) :
    sAll x0 x1 x2 x3 x4 x5 x6 x7 (ix3 r n k)
      = if r.val = 0 then aggSum x1 x3 x5 x7 n k else aggSum x0 x2 x4 x6 n k := by
  rw [sAll_apply, scM_apply, scT_apply, scM_apply, scT_apply]
  simp only [dstM_apply, dstT_apply, gatM_apply, gatT_apply, shiftM_apply, shiftT_apply]
  match r with
  | ⟨0, _⟩ =>
    refine Eq.trans ?_ (if_pos rfl).symm
    rw [seg_plain_lo x3 _ n _ (by simp [seg]), seg_plain_lo x5 _ n _ (by simp [seg]),
      seg_shift_lo x2 _ h2 _ (by simp only [seg]; have := n.isLt; push_cast; omega),
      seg_shift_lo x4 _ h4 _ (by simp only [seg]; have := n.isLt; push_cast; omega)]
    simp only [add_zero]
    rfl
  | ⟨1, _⟩ =>
    refine Eq.trans ?_ (if_neg Nat.one_ne_zero).symm
    rw [seg_plain_hi x3 _ h3 _ (by simp only [seg]; push_cast; omega), seg_plain_hi x5 _ h5 _ (by simp only [seg]; push_cast; omega),
      seg_shift_hi x2 _ h2 n _ (by simp only [seg]; push_cast; omega), seg_shift_hi x4 _ h4 n _ (by simp only [seg]; push_cast; omega)]
    simp only [add_zero, zero_add]
    rfl

include h2 h3 h4 h5 in
/-- THE EDGE COUNTS the region finds, likewise. -/
theorem c_read (r : Fin 2) (n : Fin 50000) :
    cAll (F := Ideal) x2 x3 x4 x5 (ix3 r n 0) = if r.val = 0 then aggCnt x3 x5 n else aggCnt x2 x4 n := by
  rw [cAll_apply, ctM_apply, ctT_apply, ctM_apply, ctT_apply]
  simp only [dstM_apply, dstT_apply, shiftM_apply, shiftT_apply]
  match r with
  | ⟨0, _⟩ =>
    refine Eq.trans ?_ (if_pos rfl).symm
    rw [seg_plain_lo x3 _ n _ (by simp [seg]), seg_plain_lo x5 _ n _ (by simp [seg]),
      seg_shift_lo x2 _ h2 _ (by simp only [seg]; have := n.isLt; push_cast; omega),
      seg_shift_lo x4 _ h4 _ (by simp only [seg]; have := n.isLt; push_cast; omega)]
    simp only [add_zero]
    rfl
  | ⟨1, _⟩ =>
    refine Eq.trans ?_ (if_neg Nat.one_ne_zero).symm
    rw [seg_plain_hi x3 _ h3 _ (by simp only [seg]; push_cast; omega), seg_plain_hi x5 _ h5 _ (by simp only [seg]; push_cast; omega),
      seg_shift_hi x2 _ h2 n _ (by simp only [seg]; push_cast; omega), seg_shift_hi x4 _ h4 n _ (by simp only [seg]; push_cast; omega)]
    simp only [add_zero, zero_add]
    rfl

end Cert.KernelIdeal.KHost

end
-- ==== Proof.KernelHostStacks.lean ====
/-
  The stacked arrays the region finds, read at an index: the two destination tables, the transposed weight matrices,
  and the biases, each stacked over the relation axis. Entry `r` of a stack is the first array for `r = 0` and the
  second for `r = 1`; a transposed matrix at `(k, h)` is the matrix at `(h, k)`.
-/
import proofs.«422597_j16389595201849_3_alg».proof.Proof.KernelHostTerms
import Idealize.ShloMosaic.Lib.Pipeline.Value
import Idealize.ShloMosaic.Lib.ValueIdx

noncomputable section

namespace Cert.KernelIdeal.KHost

open Cert.KernelIdeal Idealize.ShloMosaic Idealize.ShloMosaic.ValueIdx
open Facts₀ Facts

variable [Facts] {α : Type}

/-- A table kept as a one-table stack reads the table. -/
theorem unstack_apply {N D : Nat} (h : (⟨2, ![N, D]⟩ : Shape).BroadcastsInDim ⟨3, ![1, N, D]⟩ ![1, 2])
    (hN : N ≠ 1) (hD : D ≠ 1) (x : (⟨2, ![N, D]⟩ : Shape).Idx → α) (n : Fin N) (k : Fin D) :
    broadcastInDim ⟨3, ![1, N, D]⟩ ![1, 2] h x (ix3 0 n k) = x (ix2 n k) :=
  broadcastInDim_apply _ h x (ix3 0 n k) (ix2 n k) (fun a => match a with
    | ⟨0, _⟩ => by show n.val = if N = 1 then 0 else n.val; rw [if_neg hN]
    | ⟨1, _⟩ => by show k.val = if D = 1 then 0 else k.val; rw [if_neg hD])

/-- Two one-table stacks joined along the stack axis: entry `r` is the first for `r = 0`, the second for `r = 1`. -/
theorem stack2_apply {N D : Nat} (hc : Shape.Concatenates [(⟨3, ![1, N, D]⟩ : Shape), ⟨3, ![1, N, D]⟩] ⟨3, ![2, N, D]⟩ 0)
    (A B : (⟨3, ![1, N, D]⟩ : Shape).Idx → α) (r : Fin 2) (n : Fin N) (k : Fin D) :
    concatenate ⟨3, ![2, N, D]⟩ 0 [⟨⟨3, ![1, N, D]⟩, A⟩, ⟨⟨3, ![1, N, D]⟩, B⟩] hc (ix3 r n k)
      = if r.val = 0 then A (ix3 0 n k) else B (ix3 0 n k) := by
  match r with
  | ⟨0, _⟩ =>
    rw [if_pos rfl]
    exact concatenate_pair_apply_left 0 A B hc (ix3 ⟨0, by decide⟩ n k) rfl (ix3 0 n k) (fun b => match b with
      | ⟨0, _⟩ => rfl
      | ⟨1, _⟩ => rfl
      | ⟨2, _⟩ => rfl)
  | ⟨1, _⟩ =>
    refine Eq.trans ?_ (if_neg Nat.one_ne_zero).symm
    exact concatenate_pair_apply_right 0 A B hc (ix3 ⟨1, by decide⟩ n k) rfl rfl (ix3 0 n k) (fun b => match b with
      | ⟨0, _⟩ => fun h => absurd rfl h
      | ⟨1, _⟩ => fun _ => rfl
      | ⟨2, _⟩ => fun _ => rfl) rfl

/-- THE STACKED DESTINATION TABLES. -/
theorem xd_read (x0 x1 : FVec Ideal S50000x128 .f32) (r : Fin 2) (n : Fin 50000) (k : Fin 128) :
    xdAll x0 x1 (ix3 r n k) = if r.val = 0 then x0 (ix2 n k) else x1 (ix2 n k) := by
  unfold xdAll
  rw [stack2_apply, unstack_apply _ (by decide) (by decide), unstack_apply _ (by decide) (by decide)]

/-- A transposed 128 × 128 matrix at `(k, h)` is the matrix at `(h, k)`. -/
theorem transposed_apply (a : FVec Ideal S128x128 .f32) (k h : Fin 128) :
    transpose S128x128 [1, 0] a transposes_S128x128_S128x128_1_0 (ix2 k h) = a (ix2 h k) :=
  transpose_apply [1, 0] a transposes_S128x128_S128x128_1_0 (ix2 k h) (ix2 h k) (fun b => match b with
    | ⟨0, _⟩ => rfl
    | ⟨1, _⟩ => rfl)

/-- THE STACKED TRANSPOSED WEIGHTS: entry `(r, k, h)` is the `r`-th matrix at `(h, k)`. -/
theorem wT_read (a b : FVec Ideal S128x128 .f32) (r : Fin 2) (k h : Fin 128) :
    wT a b (ix3 r k h) = if r.val = 0 then a (ix2 h k) else b (ix2 h k) := by
  unfold wT
  rw [stack2_apply, unstack_apply _ (by decide) (by decide), unstack_apply _ (by decide) (by decide),
    transposed_apply, transposed_apply]

/-- THE STACKED BIASES: entry `(r, 0, h)` is the `r`-th bias at `h`. -/
theorem b_read (a b : FVec Ideal S128 .f32) (r : Fin 2) (h : Fin 128) :
    bAll a b (ix3 r 0 h) = if r.val = 0 then a (ix1 h) else b (ix1 h) := by
  unfold bAll
  rw [shapeCast_apply _ shapeCasts_S2x128_S2x1x128 (ix3 r 0 h) (ix2 r h) (by
    rw [Shape.rowMajor_val_three, Shape.rowMajor_val_two]; show r.val * 128 + h.val = (r.val * 1 + 0) * 128 + h.val; omega)]
  have rowA : ∀ v : FVec Ideal S128 .f32, broadcastInDim S1x128 ![1] bcast_S128_S1x128_1 v (ix2 0 h) = v (ix1 h) := fun v =>
    broadcastInDim_apply _ bcast_S128_S1x128_1 v (ix2 0 h) (ix1 h) (fun c => match c with
      | ⟨0, _⟩ => by show h.val = if (128 : ℕ) = 1 then 0 else h.val; rw [if_neg (by decide)])
  match r with
  | ⟨0, _⟩ =>
    rw [if_pos rfl, ← rowA a]
    exact concatenate_pair_apply_left 0 _ _ concatenates_S1x128_S1x128_S2x128_d0 (ix2 ⟨0, by decide⟩ h) rfl (ix2 0 h)
      (fun c => match c with
        | ⟨0, _⟩ => rfl
        | ⟨1, _⟩ => rfl)
  | ⟨1, _⟩ =>
    refine Eq.trans ?_ (if_neg Nat.one_ne_zero).symm
    rw [← rowA b]
    exact concatenate_pair_apply_right 0 _ _ concatenates_S1x128_S1x128_S2x128_d0 (ix2 ⟨1, by decide⟩ h) rfl rfl (ix2 0 h)
      (fun c => match c with
        | ⟨0, _⟩ => fun hne => absurd rfl hne
        | ⟨1, _⟩ => fun _ => rfl) rfl

end Cert.KernelIdeal.KHost

end
-- ==== Proof.KernelIsG.lean ====
/-
  The kernel program computes G.

  The region's result is, entry by entry, (Σ_k (s / max(cnt, 1)) · WrelT + Σ_k x_dst · WrootT) + bias of the arrays it
  finds; those arrays hold, for relation r, the segment sums and counts of that relation's edges (under the range
  precondition), the relation's destination table, its transposed weights and its bias. Substituting, entry (r, n, h) is
  (Σ_k agg · Wrel[h, k] + Σ_k Xd[n, k] · Wroot[h, k]) + b[h], which is the reference's (Σ_k agg · Wrel[h, k] + b[h])
  + Σ_k Xd[n, k] · Wroot[h, k] with two summands exchanged: addition of extended reals is commutative and associative.
-/
import proofs.«422597_j16389595201849_3_alg».proof.Proof.KernelValue
import proofs.«422597_j16389595201849_3_alg».proof.Proof.KernelHostHalves
import proofs.«422597_j16389595201849_3_alg».proof.Proof.KernelHostStacks
import proofs.«422597_j16389595201849_3_alg».proof.Proof.Spec

noncomputable section

open scoped BigOperators

namespace Cert.KernelIdeal.KHost

open Cert.KernelIdeal Idealize.ShloMosaic Idealize.ShloMosaic.ValueIdx GraphConv

variable [Facts]

/-- The region's closed form at explicit coordinates. -/
theorem out_apply (S : S2x50000x128.Idx → EReal) (C : S2x50000x1.Idx → EReal) (Xd : S2x50000x128.Idx → EReal)
    (Wr Wo : S2x128x128.Idx → EReal) (B : S2x1x128.Idx → EReal) (r : Fin 2) (n : Fin 50000) (h : Fin 128) :
    Cert.KernelIdeal.KVal.out S C Xd Wr Wo B (ix3 r n h)
      = ((∑ k : Fin 128, Ideal.div (S (ix3 r n k)) (max (C (ix3 r n 0)) (Ideal.ofBits .f32 0x3F800000#32)) * Wr (ix3 r k h))
          + (∑ k : Fin 128, Xd (ix3 r n k) * Wo (ix3 r k h))) + B (ix3 r 0 h) := rfl

/-- THE KERNEL PROGRAM'S RESULT IS G, when every destination id is in range. -/
theorem out_eq_G (x0 x1 : FVec Ideal S50000x128 .f32) (x2 x3 : IVec S2x400000 32) (x4 x5 : IVec S2x50000 32)
    (x6 x7 : FVec Ideal S50000 .f32) (x8 x9 : FVec Ideal S128x128 .f32) (x10 : FVec Ideal S128 .f32)
    (x11 x12 : FVec Ideal S128x128 .f32) (x13 : FVec Ideal S128 .f32)
    (h2 : ∀ e : Fin 400000, 0 ≤ (x2 (ix2 1 e)).toInt ∧ (x2 (ix2 1 e)).toInt < 50000)
    (h3 : ∀ e : Fin 400000, 0 ≤ (x3 (ix2 1 e)).toInt ∧ (x3 (ix2 1 e)).toInt < 50000)
    (h4 : ∀ e : Fin 50000, 0 ≤ (x4 (ix2 1 e)).toInt ∧ (x4 (ix2 1 e)).toInt < 50000)
    (h5 : ∀ e : Fin 50000, 0 ≤ (x5 (ix2 1 e)).toInt ∧ (x5 (ix2 1 e)).toInt < 50000) :
    Cert.KernelIdeal.KVal.out (sAll x0 x1 x2 x3 x4 x5 x6 x7) (cAll (F := Ideal) x2 x3 x4 x5) (xdAll x0 x1) (wT x11 x8) (wT x12 x9)
        (bAll x13 x10)
      = G x0 x1 x2 x3 x4 x5 x6 x7 x8 x9 x10 x11 x12 x13 := by
  funext j
  obtain ⟨r, n, h, rfl⟩ : ∃ (r : Fin 2) (n : Fin 50000) (h : Fin 128), j = ix3 r n h := ⟨j 0, j 1, j 2, eq_ix3 j⟩
  rw [out_apply]
  simp only [s_read x0 x1 x2 x3 x4 x5 x6 x7 h2 h3 h4 h5, c_read x2 x3 x4 x5 h2 h3 h4 h5, xd_read, wT_read, b_read]
  show _ = if r.val = 0 then relOut x1 x0 x3 x5 x7 x11 x12 x13 n h else relOut x0 x1 x2 x4 x6 x8 x9 x10 n h
  unfold relOut
  by_cases hr : r.val = 0
  · simp only [hr, if_true]
    exact add_right_comm _ _ _
  · simp only [hr, if_false]
    exact add_right_comm _ _ _

end Cert.KernelIdeal.KHost

end
-- ==== Proof.RefRelation.lean ====
/-
  One relation of the reference read at an index, down to its two accumulating scatters and its gather; the second
  relation; and the stacking of the two.

  The reference lays the 400000 message edges and the 50000 target edges of a relation end to end (450000 edges, row 0
  the source ids, row 1 the destination ids), gives the message edges the weight one and the target edges their own
  weight, and computes for the relation

      out n h = ( Σ_k (S n k / max (C n) 1) · Wrel[h, k] + b[h] ) + Σ_k Xd[n, k] · Wroot[h, k],

  where S (an accumulating scatter of rows) and C (an accumulating scatter of scalars) run over the 450000 edges.
  Here every operation but those scatters and the row gather is read at an index:
  • the concatenated edge list at a position below 400000 is the message list's entry there, and at 400000 + b the
    target list's entry at b; the concatenated weights likewise are one, or the target weight;
  • an edge's source id and destination id, as the gather and the scatters read them, are rows 0 and 1 of that list;
  • the divisor at node n is max (C n) 1, the linear maps are sums over the 128 features against the transposed
    matrices, the bias is added per output feature.
  The second relation is the same composition of operations at the other inputs, and the result stacks the second
  relation's output (index 0) over the first's (index 1).
-/
import proofs.«422597_j16389595201849_3_alg».proof.Proof.Gen.ReferenceIdeal.Read
import Idealize.ShloMosaic.Lib.Pipeline.Value
import Idealize.ShloMosaic.Lib.ValueIdx
import Idealize.ShloMosaic.Lib.IdealHost

noncomputable section

open scoped BigOperators

namespace Cert.ReferenceIdeal.RefVal

open Cert.ReferenceIdeal Cert.ReferenceIdeal.Gen Cert.ReferenceIdeal.Read Idealize.ShloMosaic Idealize.ShloMosaic.ValueIdx

/-- A node-feature table, as the program types it. -/
abbrev VTbl : Type := (⟨S50000x128, .f32⟩ : BufTy).Contents (Elt Ideal)
/-- A message-edge list. -/
abbrev VMsg : Type := (⟨S2x400000, .i32⟩ : BufTy).Contents (Elt Ideal)
/-- A target-edge list. -/
abbrev VTgt : Type := (⟨S2x50000, .i32⟩ : BufTy).Contents (Elt Ideal)
/-- The target edges' weights. -/
abbrev VWts : Type := (⟨S50000, .f32⟩ : BufTy).Contents (Elt Ideal)
/-- A weight matrix. -/
abbrev VMat : Type := (⟨S128x128, .f32⟩ : BufTy).Contents (Elt Ideal)
/-- A bias. -/
abbrev VBias : Type := (⟨S128, .f32⟩ : BufTy).Contents (Elt Ideal)

/-! ## The concatenated edge list and weights -/

section Edges
variable (x2 : VMsg) (x4 : VTgt) (x6 : VWts)

/-- At a position below 400000 the edge list is the message list. -/
theorem edges_msg (r : Fin 2) (a : Fin 400000) :
    val_main_v0 (F := Ideal) x2 x4 (ix2 r ⟨a.val, by omega⟩) = x2 (ix2 r a) := by
  unfold val_main_v0
  exact concatenate_pair_apply_left 1 x2 x4 concatenates_S2x400000_S2x50000_S2x450000_d1 _ rfl _
    (fun b => by
      match b with
      | ⟨0, _⟩ => rfl
      | ⟨1, _⟩ => rfl)

/-- At position 400000 + b it is the target list at b. -/
theorem edges_tgt (r : Fin 2) (b : Fin 50000) :
    val_main_v0 (F := Ideal) x2 x4 (ix2 r ⟨400000 + b.val, by omega⟩) = x4 (ix2 r b) := by
  unfold val_main_v0
  exact concatenate_pair_apply_right 1 x2 x4 concatenates_S2x400000_S2x50000_S2x450000_d1 _ rfl rfl _
    (fun c hc => by
      match c with
      | ⟨0, _⟩ => rfl
      | ⟨1, _⟩ => exact absurd rfl hc)
    (by show b.val + 400000 = 400000 + b.val; omega)

/-- A message edge's weight is one. -/
theorem wts_msg (a : Fin 400000) :
    val_main_v2 (F := Ideal) x6 (ix1 ⟨a.val, by omega⟩) = Ideal.ofBits .f32 0x3F800000#32 := by
  unfold val_main_v2
  refine (concatenate_pair_apply_left 0 (val_main_v1 (F := Ideal)) x6 concatenates_S400000_S50000_S450000_d0 _ rfl
    (ix1 a) (fun b => by
      match b with
      | ⟨0, _⟩ => rfl)).trans ?_
  exact (val_main_v1_apply (F := Ideal) _).trans (val_main_cst_apply (F := Ideal) _)

/-- A target edge's weight is its own. -/
theorem wts_tgt (b : Fin 50000) :
    val_main_v2 (F := Ideal) x6 (ix1 ⟨400000 + b.val, by omega⟩) = x6 (ix1 b) := by
  unfold val_main_v2
  exact concatenate_pair_apply_right 0 (val_main_v1 (F := Ideal)) x6 concatenates_S400000_S50000_S450000_d0 _ rfl rfl _
    (fun c hc => by
      match c with
      | ⟨0, _⟩ => exact absurd rfl hc)
    (by show b.val + 400000 = 400000 + b.val; omega)

/-- Edge e's source id is row 0 of the edge list. -/
theorem src_at (e : Fin 450000) :
    val_main_v7 (F := Ideal) x2 x4 (ix1 e) = val_main_v0 (F := Ideal) x2 x4 (ix2 0 e) := by
  rw [val_main_v7_apply, val_main_v6_apply]
  congr 1
  funext a
  refine Fin.ext ?_
  match a with
  | ⟨0, _⟩ => rfl
  | ⟨1, _⟩ => exact Nat.mod_eq_of_lt e.isLt

/-- Edge e's destination id is row 1 of the edge list. -/
theorem dst_at (e : Fin 450000) :
    val_main_v9 (F := Ideal) x2 x4 (ix1 e) = val_main_v0 (F := Ideal) x2 x4 (ix2 1 e) := by
  rw [val_main_v9_apply, val_main_v8_apply]
  congr 1
  funext a
  refine Fin.ext ?_
  match a with
  | ⟨0, _⟩ => rfl
  | ⟨1, _⟩ => exact Nat.mod_eq_of_lt e.isLt

/-- The id column the row scatter reads. -/
theorem v21_at (e : Fin 450000) :
    val_main_v21 (F := Ideal) x2 x4 (ix2 e 0) = val_main_v0 (F := Ideal) x2 x4 (ix2 1 e) := by
  rw [val_main_v21_apply, show idx_main_v21 (ix2 e (0 : Fin 1)) = ix1 e from funext fun a => by
    match a with
    | ⟨0, _⟩ => rfl]
  exact dst_at x2 x4 e

/-- The id column the scalar scatter reads. -/
theorem v25_at (e : Fin 450000) :
    val_main_v25 (F := Ideal) x2 x4 (ix2 e 0) = val_main_v0 (F := Ideal) x2 x4 (ix2 1 e) := by
  rw [val_main_v25_apply, show idx_main_v25 (ix2 e (0 : Fin 1)) = ix1 e from funext fun a => by
    match a with
    | ⟨0, _⟩ => rfl]
  exact dst_at x2 x4 e

/-- The id column the gather reads: the source id, a negative one counted from the end of the 50000 rows. -/
theorem v16_at (e : Fin 450000) :
    val_main_v16 (F := Ideal) x2 x4 (ix2 e 0)
      = Scalar.select (IntOp.cmpi .slt (val_main_v0 (F := Ideal) x2 x4 (ix2 0 e)) 0#32)
          (IntOp.addi (val_main_v0 (F := Ideal) x2 x4 (ix2 0 e)) 50000#32) (val_main_v0 (F := Ideal) x2 x4 (ix2 0 e)) := by
  rw [val_main_v16_apply, show idx_main_v16 (ix2 e (0 : Fin 1)) = ix1 e from funext fun a => by
    match a with
    | ⟨0, _⟩ => rfl,
    val_main_v15_apply, val_main_v12_apply, val_main_v14_apply, val_main_v11_apply, val_main_v13_apply,
    val_main_c_apply, val_main_c_1_apply, src_at]

/-- The weight broadcast along the features is the edge's weight. -/
theorem v18_at (e : Fin 450000) (k : Fin 128) :
    val_main_v18 (F := Ideal) x6 (ix2 e k) = val_main_v2 (F := Ideal) x6 (ix1 e) := by
  rw [val_main_v18_apply, val_main_v10_apply]
  congr 1
  funext a
  match a with
  | ⟨0, _⟩ => rfl

/-- The scatters start from zero. -/
theorem v20_zero (i : S50000x128.Idx) : val_main_v20 (F := Ideal) i = 0 :=
  (val_main_v20_apply (F := Ideal) i).trans Ideal.ofBits_zero_f32

theorem v24_zero (i : S50000.Idx) : val_main_v24 (F := Ideal) i = 0 :=
  (val_main_v24_apply (F := Ideal) i).trans Ideal.ofBits_zero_f32

/-- Every edge counts one. -/
theorem v23_one (i : S450000.Idx) : val_main_v23 (F := Ideal) i = Ideal.ofBits .f32 0x3F800000#32 :=
  (val_main_v23_apply (F := Ideal) i).trans (val_main_cst_3_apply (F := Ideal) _)

/-- The divisor at node n: the count, at least one. -/
theorem v30_at (n : Fin 50000) (k : Fin 128) :
    val_main_v30 (F := Ideal) x2 x4 (ix2 n k)
      = max (val_main_v26 (F := Ideal) x2 x4 (ix1 n)) (Ideal.ofBits .f32 0x3F800000#32) := by
  have e : idx_main_v29 (idx_main_v30 (ix2 n k)) = ix1 n := funext fun a => by
    match a with
    | ⟨0, _⟩ => rfl
  rw [val_main_v30_apply, val_main_v29_apply, val_main_v28_apply, val_main_v27_apply, val_main_cst_5_apply, e]
  rfl

end Edges

/-! ## The linear maps and the relation's output -/

section Rel
variable (x0 x1 : VTbl) (x2 : VMsg) (x4 : VTgt) (x6 : VWts) (x8 x9 : VMat) (x10 : VBias)

/-- The aggregated mean against the relation matrix. -/
theorem v33_at (n : Fin 50000) (h : Fin 128) :
    val_main_v33 (F := Ideal) x0 x2 x4 x6 x8 (ix2 n h)
      = ∑ k : Fin 128, Ideal.div (val_main_v22 (F := Ideal) x0 x2 x4 x6 (ix2 n k))
          (max (val_main_v26 (F := Ideal) x2 x4 (ix1 n)) (Ideal.ofBits .f32 0x3F800000#32)) * x8 (ix2 h k) := by
  rw [val_main_v33_apply]
  refine Finset.sum_congr rfl fun k _ => ?_
  have el : lidx_main_v33 (ix2 n h) k = ix2 n k := funext fun a => by
    match a with
    | ⟨0, _⟩ => rfl
    | ⟨1, _⟩ => rfl
  have er : ridx_main_v33 (ix2 n h) k = ix2 k h := funext fun a => by
    match a with
    | ⟨0, _⟩ => rfl
    | ⟨1, _⟩ => rfl
  have et : idx_main_v32 (ix2 k h) = ix2 h k := funext fun a => by
    match a with
    | ⟨0, _⟩ => rfl
    | ⟨1, _⟩ => rfl
  rw [el, er, val_main_v31_apply, v30_at, val_main_v32_apply, et]
  rfl

/-- The bias, per output feature. -/
theorem v35_at (n : Fin 50000) (h : Fin 128) : val_main_v35 (F := Ideal) x10 (ix2 n h) = x10 (ix1 h) := by
  rw [val_main_v35_apply, val_main_v34_apply]
  congr 1
  funext a
  match a with
  | ⟨0, _⟩ => rfl

/-- The destination features against the root matrix. -/
theorem v38_at (n : Fin 50000) (h : Fin 128) :
    val_main_v38 (F := Ideal) x1 x9 (ix2 n h) = ∑ k : Fin 128, x1 (ix2 n k) * x9 (ix2 h k) := by
  rw [val_main_v38_apply]
  refine Finset.sum_congr rfl fun k _ => ?_
  have el : lidx_main_v38 (ix2 n h) k = ix2 n k := funext fun a => by
    match a with
    | ⟨0, _⟩ => rfl
    | ⟨1, _⟩ => rfl
  have er : ridx_main_v38 (ix2 n h) k = ix2 k h := funext fun a => by
    match a with
    | ⟨0, _⟩ => rfl
    | ⟨1, _⟩ => rfl
  have et : idx_main_v37 (ix2 k h) = ix2 h k := funext fun a => by
    match a with
    | ⟨0, _⟩ => rfl
    | ⟨1, _⟩ => rfl
  rw [el, er, val_main_v37_apply, et]

/-- One relation's output at node n, feature h, over its two scatters. -/
theorem v39_at (n : Fin 50000) (h : Fin 128) :
    val_main_v39 (F := Ideal) x0 x1 x2 x4 x6 x8 x9 x10 (ix2 n h)
      = ((∑ k : Fin 128, Ideal.div (val_main_v22 (F := Ideal) x0 x2 x4 x6 (ix2 n k))
            (max (val_main_v26 (F := Ideal) x2 x4 (ix1 n)) (Ideal.ofBits .f32 0x3F800000#32)) * x8 (ix2 h k))
          + x10 (ix1 h))
        + ∑ k : Fin 128, x1 (ix2 n k) * x9 (ix2 h k) := by
  rw [val_main_v39_apply, val_main_v36_apply, v33_at, v35_at, v38_at]
  rfl

end Rel

/-! ## The second relation and the stack -/

/-- The second relation is the first one's composition of operations at the other inputs. -/
theorem rel_ba (x0 x1 : VTbl) (x3 : VMsg) (x5 : VTgt) (x7 : VWts) (x11 x12 : VMat) (x13 : VBias) :
    val_main_v73 (F := Ideal) x0 x1 x3 x5 x7 x11 x12 x13 = val_main_v39 (F := Ideal) x1 x0 x3 x5 x7 x11 x12 x13 := rfl

/-- The result at index j: the second relation's output where j's first coordinate is 0, the first relation's where
    it is 1, both at j's node and feature. -/
theorem stack_at (x0 x1 : VTbl) (x2 x3 : VMsg) (x4 x5 : VTgt) (x6 x7 : VWts) (x8 x9 : VMat) (x10 : VBias)
    (x11 x12 : VMat) (x13 : VBias) (j : S2x50000x128.Idx) :
    val_main_v76 (F := Ideal) x0 x1 x2 x3 x4 x5 x6 x7 x8 x9 x10 x11 x12 x13 j
      = if (j 0).val = 0 then val_main_v39 (F := Ideal) x1 x0 x3 x5 x7 x11 x12 x13 (ix2 (j 1) (j 2))
        else val_main_v39 (F := Ideal) x0 x1 x2 x4 x6 x8 x9 x10 (ix2 (j 1) (j 2)) := by
  unfold val_main_v76
  by_cases h0 : (j 0).val = 0
  · rw [if_pos h0]
    refine (concatenate_pair_apply_left 0 _ _ concatenates_S1x50000x128_S1x50000x128_S2x50000x128_d0 j rfl
      (ix3 0 (j 1) (j 2)) (fun b => by
        match b with
        | ⟨0, _⟩ => exact h0.symm
        | ⟨1, _⟩ => rfl
        | ⟨2, _⟩ => rfl)).trans ?_
    rw [val_main_v74_apply, rel_ba]
    congr 1
    funext a
    match a with
    | ⟨0, _⟩ => rfl
    | ⟨1, _⟩ => rfl
  · rw [if_neg h0]
    have h2 : (j 0).val < 2 := (j 0).isLt
    refine (concatenate_pair_apply_right 0 _ _ concatenates_S1x50000x128_S1x50000x128_S2x50000x128_d0 j rfl rfl
      (ix3 0 (j 1) (j 2)) (fun b hb => by
        match b with
        | ⟨0, _⟩ => exact absurd rfl hb
        | ⟨1, _⟩ => rfl
        | ⟨2, _⟩ => rfl)
      (by show 0 + 1 = (j 0).val; omega)).trans ?_
    rw [val_main_v75_apply]
    congr 1
    funext a
    match a with
    | ⟨0, _⟩ => rfl
    | ⟨1, _⟩ => rfl

end Cert.ReferenceIdeal.RefVal

end
-- ==== Proof.RefValue.lean ====
/-
  The reference's value is the two-relation GraphConv G.

  For one relation, with the 450000 edges the 400000 message edges followed by the 50000 target edges:
  • the row gather reads, for edge e and feature k, the source table at the row edge e's source id names (a negative id
    counted from the end, then clamped into the table) and column k; times the edge's weight it is edge e's message;
  • the accumulating row scatter from zero gives at node n, feature k, the sum of the messages of the edges whose
    destination id, read signed, is n. A sum over the 450000 edges is the sum over the first 400000 plus the sum over
    the last 50000: on the first the edge is a message edge and its weight one, on the last a target edge with its
    own weight. That is the specification's summed messages; an id outside [0, 50000) meets no node on either side;
  • the accumulating scalar scatter of ones from zero gives the number of edges into n the same way.
  With the other operations read at an index, one relation's output is the specification's, and the stack of the two
  relations is G.
-/
import proofs.«422597_j16389595201849_3_alg».proof.Proof.RefRelation
import proofs.«422597_j16389595201849_3_alg».proof.Proof.Spec

noncomputable section

open scoped BigOperators

namespace Cert.ReferenceIdeal.RefVal

open Cert.ReferenceIdeal Cert.ReferenceIdeal.Gen Cert.ReferenceIdeal.Read Idealize.ShloMosaic Idealize.ShloMosaic.ValueIdx
  Idealize.ShloMosaic.RowScatter

section Rel
variable (x0 x1 : VTbl) (x2 : VMsg) (x4 : VTgt) (x6 : VWts) (x8 x9 : VMat) (x10 : VBias)

/-- The printed gather's dimension numbers are the row gather's. -/
theorem gather_dims_eq : gather_S50000x128_S450000x1_S450000x128_1_0_n_n_0_1_1128
    = gatherRows 50000 128 450000 gather_S50000x128_S450000x1_S450000x128_1_0_n_n_0_1_1128_wf := rfl

/-- The printed row scatter's dimension numbers are the accumulating row scatter's. -/
theorem scatter_rows_dims_eq : scatter_S50000x128_S450000x1_S450000x128_1_0_0_1
    = scatterRows 50000 128 450000 scatter_S50000x128_S450000x1_S450000x128_1_0_0_1_wf := rfl

/-- The printed scalar scatter's dimension numbers are the accumulating scalar scatter's. -/
theorem scatter_segs_dims_eq : scatter_S50000_S450000x1_S450000_n_0_0_1
    = scatterSegs 50000 450000 scatter_S50000_S450000x1_S450000_n_0_0_1_wf := rfl

/-- The gathered row: the source table at the row edge e's source id names. -/
theorem v17_at (e : Fin 450000) (k : Fin 128) :
    val_main_v17 (F := Ideal) x0 x2 x4 (ix2 e k)
      = x0 (ix2 (GraphConv.srcRow (val_main_v0 (F := Ideal) x2 x4 (ix2 0 e))) k) := by
  unfold val_main_v17
  rw [gather_dims_eq, gather_rows_apply (by decide : 0 < 50000), v16_at]
  rfl

/-- Edge e's message at feature k: its weight times the gathered row. -/
theorem v19_at (e : Fin 450000) (k : Fin 128) :
    val_main_v19 (F := Ideal) x0 x2 x4 x6 (ix2 e k)
      = val_main_v2 (F := Ideal) x6 (ix1 e) * x0 (ix2 (GraphConv.srcRow (val_main_v0 (F := Ideal) x2 x4 (ix2 0 e))) k) := by
  rw [val_main_v19_apply, v18_at, v17_at]
  rfl

/-- The row scatter, as a function, is the accumulating row scatter of the messages from zero. -/
theorem v22_fn : val_main_v22 (F := Ideal) x0 x2 x4 x6
    = Ideal.hostScatterAdd (scatterRows 50000 128 450000 scatter_S50000x128_S450000x1_S450000x128_1_0_0_1_wf)
        (val_main_v20 (F := Ideal)) (val_main_v21 (F := Ideal) x2 x4) (val_main_v19 (F := Ideal) x0 x2 x4 x6) :=
  have h1 : val_main_v22 (F := Ideal) x0 x2 x4 x6
      = Host.scatterAdd (F := Ideal) (φ := .f32) scatter_S50000x128_S450000x1_S450000x128_1_0_0_1
          (val_main_v20 (F := Ideal)) (val_main_v21 (F := Ideal) x2 x4) (val_main_v19 (F := Ideal) x0 x2 x4 x6) := rfl
  have h2 : Host.scatterAdd (F := Ideal) (φ := .f32) scatter_S50000x128_S450000x1_S450000x128_1_0_0_1
          (val_main_v20 (F := Ideal)) (val_main_v21 (F := Ideal) x2 x4) (val_main_v19 (F := Ideal) x0 x2 x4 x6)
      = Ideal.hostScatterAdd scatter_S50000x128_S450000x1_S450000x128_1_0_0_1
          (val_main_v20 (F := Ideal)) (val_main_v21 (F := Ideal) x2 x4) (val_main_v19 (F := Ideal) x0 x2 x4 x6) := rfl
  h1.trans (h2.trans (congrArg (fun d => Ideal.hostScatterAdd d (val_main_v20 (F := Ideal))
    (val_main_v21 (F := Ideal) x2 x4) (val_main_v19 (F := Ideal) x0 x2 x4 x6)) scatter_rows_dims_eq))

/-- The scalar scatter, as a function, is the accumulating scalar scatter of ones from zero. -/
theorem v26_fn : val_main_v26 (F := Ideal) x2 x4
    = Ideal.hostScatterAdd (scatterSegs 50000 450000 scatter_S50000_S450000x1_S450000_n_0_0_1_wf)
        (val_main_v24 (F := Ideal)) (val_main_v25 (F := Ideal) x2 x4) (val_main_v23 (F := Ideal)) :=
  have h1 : val_main_v26 (F := Ideal) x2 x4
      = Host.scatterAdd (F := Ideal) (φ := .f32) scatter_S50000_S450000x1_S450000_n_0_0_1
          (val_main_v24 (F := Ideal)) (val_main_v25 (F := Ideal) x2 x4) (val_main_v23 (F := Ideal)) := rfl
  have h2 : Host.scatterAdd (F := Ideal) (φ := .f32) scatter_S50000_S450000x1_S450000_n_0_0_1
          (val_main_v24 (F := Ideal)) (val_main_v25 (F := Ideal) x2 x4) (val_main_v23 (F := Ideal))
      = Ideal.hostScatterAdd scatter_S50000_S450000x1_S450000_n_0_0_1
          (val_main_v24 (F := Ideal)) (val_main_v25 (F := Ideal) x2 x4) (val_main_v23 (F := Ideal)) := rfl
  h1.trans (h2.trans (congrArg (fun d => Ideal.hostScatterAdd d (val_main_v24 (F := Ideal))
    (val_main_v25 (F := Ideal) x2 x4) (val_main_v23 (F := Ideal))) scatter_segs_dims_eq))

/-- The row scatter at node n, feature k: the sum of the messages of the edges into n. -/
theorem v22_scatter (n : Fin 50000) (k : Fin 128) :
    val_main_v22 (F := Ideal) x0 x2 x4 x6 (ix2 n k)
      = ∑ e : Fin 450000, if (val_main_v0 (F := Ideal) x2 x4 (ix2 1 e)).toInt = (n.val : ℤ)
          then val_main_v2 (F := Ideal) x6 (ix1 e)
            * x0 (ix2 (GraphConv.srcRow (val_main_v0 (F := Ideal) x2 x4 (ix2 0 e))) k) else 0 := by
  rw [v22_fn, scatterAdd_rows_apply, v20_zero, zero_add]
  refine Finset.sum_congr rfl fun e _ => ?_
  rw [v21_at, v19_at]

/-- The scalar scatter at node n: one for every edge into n. -/
theorem v26_scatter (n : Fin 50000) :
    val_main_v26 (F := Ideal) x2 x4 (ix1 n)
      = ∑ e : Fin 450000, if (val_main_v0 (F := Ideal) x2 x4 (ix2 1 e)).toInt = (n.val : ℤ)
          then Ideal.ofBits .f32 0x3F800000#32 else 0 := by
  rw [v26_fn, scatterAdd_segs_apply, v24_zero, zero_add]
  refine Finset.sum_congr rfl fun e _ => ?_
  rw [v25_at, v23_one]

/-- The specification's summed messages, written out. -/
theorem aggSum_eq (X : GraphConv.Tbl) (Im : GraphConv.Edges 400000) (It : GraphConv.Edges 50000) (w : GraphConv.Wts)
    (n : Fin 50000) (k : Fin 128) :
    GraphConv.aggSum X Im It w n k
      = (∑ e : Fin 400000, if (Im (ix2 1 e)).toInt = (n.val : ℤ)
          then X (ix2 (GraphConv.srcRow (Im (ix2 0 e))) k) else 0)
        + ∑ e : Fin 50000, if (It (ix2 1 e)).toInt = (n.val : ℤ)
          then w (ix1 e) * X (ix2 (GraphConv.srcRow (It (ix2 0 e))) k) else 0 := rfl

/-- The specification's count of edges, written out. -/
theorem aggCnt_eq (Im : GraphConv.Edges 400000) (It : GraphConv.Edges 50000) (n : Fin 50000) :
    GraphConv.aggCnt Im It n
      = (∑ e : Fin 400000, if (Im (ix2 1 e)).toInt = (n.val : ℤ) then Ideal.ofBits .f32 0x3F800000#32 else 0)
        + ∑ e : Fin 50000, if (It (ix2 1 e)).toInt = (n.val : ℤ) then Ideal.ofBits .f32 0x3F800000#32 else 0 := rfl

/-- The specification's output of one relation, written out. -/
theorem relOut_eq (X Xd : GraphConv.Tbl) (Im : GraphConv.Edges 400000) (It : GraphConv.Edges 50000) (w : GraphConv.Wts)
    (Wrel Wroot : GraphConv.Mat) (b : GraphConv.Bias) (n : Fin 50000) (h : Fin 128) :
    GraphConv.relOut X Xd Im It w Wrel Wroot b n h
      = ((∑ k : Fin 128, Ideal.div (GraphConv.aggSum X Im It w n k)
            (max (GraphConv.aggCnt Im It n) (Ideal.ofBits .f32 0x3F800000#32)) * Wrel (ix2 h k))
          + b (ix1 h))
        + ∑ k : Fin 128, Xd (ix2 n k) * Wroot (ix2 h k) := rfl

/-- The row scatter is the specification's summed messages: the sum over the 450000 edges is the sum over the message
    edges, each of weight one, plus the sum over the target edges. -/
theorem v22_at (n : Fin 50000) (k : Fin 128) :
    val_main_v22 (F := Ideal) x0 x2 x4 x6 (ix2 n k) = GraphConv.aggSum x0 x2 x4 x6 n k := by
  rw [v22_scatter, aggSum_eq, GraphConv.sum_fin_split 400000 50000 450000 rfl]
  refine congrArg₂ (· + ·) (Finset.sum_congr rfl fun a _ => ?_) (Finset.sum_congr rfl fun b _ => ?_)
  · beta_reduce
    rw [edges_msg, edges_msg, wts_msg, Ideal.ofBits_one_f32, one_mul]
  · beta_reduce
    rw [edges_tgt, edges_tgt, wts_tgt]

/-- The scalar scatter is the specification's count of edges. -/
theorem v26_at (n : Fin 50000) : val_main_v26 (F := Ideal) x2 x4 (ix1 n) = GraphConv.aggCnt x2 x4 n := by
  rw [v26_scatter, aggCnt_eq, GraphConv.sum_fin_split 400000 50000 450000 rfl]
  refine congrArg₂ (· + ·) (Finset.sum_congr rfl fun a _ => ?_) (Finset.sum_congr rfl fun b _ => ?_)
  · beta_reduce
    rw [edges_msg]
  · beta_reduce
    rw [edges_tgt]

/-- One relation's output is the specification's. -/
theorem rel_eq (n : Fin 50000) (h : Fin 128) :
    val_main_v39 (F := Ideal) x0 x1 x2 x4 x6 x8 x9 x10 (ix2 n h)
      = GraphConv.relOut x0 x1 x2 x4 x6 x8 x9 x10 n h := by
  rw [v39_at, v26_at, relOut_eq]
  simp only [v22_at]

end Rel

/-- G at an index, written out. -/
theorem G_apply (x0 x1 : GraphConv.Tbl) (x2 x3 : GraphConv.Edges 400000) (x4 x5 : GraphConv.Edges 50000)
    (x6 x7 : GraphConv.Wts) (x8 x9 : GraphConv.Mat) (x10 : GraphConv.Bias) (x11 x12 : GraphConv.Mat) (x13 : GraphConv.Bias)
    (j : (⟨3, ![2, 50000, 128]⟩ : Shape).Idx) :
    GraphConv.G x0 x1 x2 x3 x4 x5 x6 x7 x8 x9 x10 x11 x12 x13 j
      = if (j 0).val = 0 then GraphConv.relOut x1 x0 x3 x5 x7 x11 x12 x13 (j 1) (j 2)
        else GraphConv.relOut x0 x1 x2 x4 x6 x8 x9 x10 (j 1) (j 2) := rfl

/-- THE REFERENCE'S VALUE: the stack of the two relations' outputs is G. -/
theorem result_eq (x0 x1 : (⟨S50000x128, .f32⟩ : BufTy).Contents (Elt Ideal)) (x2 x3 : (⟨S2x400000, .i32⟩ : BufTy).Contents (Elt Ideal))
    (x4 x5 : (⟨S2x50000, .i32⟩ : BufTy).Contents (Elt Ideal)) (x6 x7 : (⟨S50000, .f32⟩ : BufTy).Contents (Elt Ideal))
    (x8 x9 : (⟨S128x128, .f32⟩ : BufTy).Contents (Elt Ideal)) (x10 : (⟨S128, .f32⟩ : BufTy).Contents (Elt Ideal))
    (x11 x12 : (⟨S128x128, .f32⟩ : BufTy).Contents (Elt Ideal)) (x13 : (⟨S128, .f32⟩ : BufTy).Contents (Elt Ideal)) :
    Read.val_main_v76 (F := Ideal) x0 x1 x2 x3 x4 x5 x6 x7 x8 x9 x10 x11 x12 x13
      = GraphConv.G x0 x1 x2 x3 x4 x5 x6 x7 x8 x9 x10 x11 x12 x13 := by
  funext j
  rw [stack_at, rel_eq x1 x0 x3 x5 x7 x11 x12 x13 (j 1) (j 2), rel_eq x0 x1 x2 x4 x6 x8 x9 x10 (j 1) (j 2), G_apply]

end Cert.ReferenceIdeal.RefVal

end
-- ==== Proof.lean ====
/-
  A two-relation GraphConv (gather, weighted segment mean, two linear maps and a bias per relation), the kernel program
  against its jnp reference, over the extended reals.

  Both programs compute, for each relation, out[n, h] = Σ_k (sum[n, k] / max(count[n], 1)) · Wrel[h, k] + b[h]
  + Σ_k Xd[n, k] · Wroot[h, k], where sum and count are segment sums over the relation's message edges (weight one) and
  target edges (weight w). The reference concatenates the two edge lists and scatters once into 50000 segments per
  relation; the kernel program scatters each list separately into one shared space of 2 · 50000 segments, shifting one
  relation's destination ids by 50000, and runs the mean and the linear maps in one region over both relations. The two
  agree when every destination id is in [0, 50000) — outside it the reference's segment id is out of range, and the
  shared space would let an id land in the other relation's half — which is what the precondition adds to finiteness
  (the finiteness conjuncts are never used: the laws needed are the commutativity and associativity of + alone).

  The frames are the generated ones; `preserves` has no entry; the algebraic claim sets the kernel's closed form
  (KernelValue, KernelHost*, KernelIsG) beside the reference's run (RefValue), both equal to GraphConv.G (Spec).
-/
import proofs.«422597_j16389595201849_3_alg».proof.Defs
import proofs.«422597_j16389595201849_3_alg».proof.Proof.Gen.Kernel
import proofs.«422597_j16389595201849_3_alg».proof.Proof.Gen.Kernel.Skeleton
import proofs.«422597_j16389595201849_3_alg».proof.Proof.Gen.Kernel.Launch
import proofs.«422597_j16389595201849_3_alg».proof.Proof.Gen.Kernel.Points
import proofs.«422597_j16389595201849_3_alg».proof.Proof.Gen.Kernel.Frame
import proofs.«422597_j16389595201849_3_alg».proof.Proof.Gen.KernelIdeal
import proofs.«422597_j16389595201849_3_alg».proof.Proof.Gen.KernelIdeal.Skeleton
import proofs.«422597_j16389595201849_3_alg».proof.Proof.Gen.KernelIdeal.Launch
import proofs.«422597_j16389595201849_3_alg».proof.Proof.Gen.KernelIdeal.Points
import proofs.«422597_j16389595201849_3_alg».proof.Proof.Gen.KernelIdeal.Frame
import proofs.«422597_j16389595201849_3_alg».proof.Proof.Gen.ReferenceIdeal
import proofs.«422597_j16389595201849_3_alg».proof.Proof.Gen.Pre_finite_inputs
import proofs.«422597_j16389595201849_3_alg».proof.Proof.Gen.KernelIdeal.Value
import proofs.«422597_j16389595201849_3_alg».proof.Proof.Gen.ReferenceIdeal.Run
import proofs.«422597_j16389595201849_3_alg».proof.Proof.Gen.ReferenceIdeal.Read
import proofs.«422597_j16389595201849_3_alg».proof.Proof.PreDecode
import proofs.«422597_j16389595201849_3_alg».proof.Proof.KernelHostArrays
import proofs.«422597_j16389595201849_3_alg».proof.Proof.KernelIsG
import proofs.«422597_j16389595201849_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- The reference has no region: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at G of the arguments: the kernel program by its closed form over the arrays the region
    finds, read under the precondition's range facts; the reference by its generated run read one operation at a time. -/
theorem algebraic : Cert.algebraic_KernelIdeal_ReferenceIdeal := by
  intro m ρ m' ρ' hpre hagree
  refine ⟨fun c => GraphConv.G
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.Value.run_blocks (F := Ideal) m ρ)
    obtain ⟨h2, h3, h4, h5⟩ := Cert.PreDecode.dst_range _ _ _ _ _ _ _ _ _ _ _ _ _ _ (hpre c)
    rw [Cert.KernelIdeal.KVal.final m c, Cert.KernelIdeal.KHost.V_s, Cert.KernelIdeal.KHost.V_c, Cert.KernelIdeal.KHost.V_xd,
      Cert.KernelIdeal.KHost.V_wrel, Cert.KernelIdeal.KHost.V_wroot, Cert.KernelIdeal.KHost.V_b]
    exact Cert.KernelIdeal.KHost.out_eq_G _ _ _ _ _ _ _ _ _ _ _ _ _ _ h2 h3 h4 h5
  · refine (θ_run Cert.ReferenceIdeal.defs _ _).mono (fun r h c => ⟨?_, (h c).2⟩)
      (Cert.ReferenceIdeal.Value.run (F := Ideal) m' ρ')
    rw [(h c).1, Cert.ReferenceIdeal.Read.val_main_v76_eq, Cert.ReferenceIdeal.RefVal.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2.1,
      (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
